-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x2048 : Shape := ⟨2, ![1024, 2048]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x2048 .f32) (main_arg8 : FVec F S1024 .f32) (main_arg9 : FVec F S1024x2048 .f32) (main_arg10 : FVec F S1024 .f32) (main_v33 : IVec S_ 1) : IVec S_ 1 :=
  let main_v34 : FVec F S1024x2048 .f32 := Host.absf main_arg7
  let main_cst_12 : FVec F S_ .f32 := constant S_ .f32 0x7F800000#32
  let main_v35 : FVec F S1024x2048 .f32 := broadcastInDim S1024x2048 ![] bcast_S_S1024x2048 main_cst_12
  let main_v36 : IVec S1024x2048 1 := cmpf .olt main_v34 main_v35
  let main_c_13 : IVec S_ 1 := constantI S_ 1 1#1
  let main_v37 : IVec S_ 1 := (fun x v => Host.reduce IntOp.andi x v reducesTo_S1024x2048_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x2048 .f32 := Host.absf main_arg9
  let main_cst_16 : FVec F S_ .f32 := constant S_ .f32 0x7F800000#32
  let main_v45 : FVec F S1024x2048 .f32 := broadcastInDim S1024x2048 ![] bcast_S_S1024x2048 main_cst_16
  let main_v46 : IVec S1024x2048 1 := cmpf .olt main_v44 main_v45
  let main_c_17 : IVec S_ 1 := constantI S_ 1 1#1
  let main_v47 : IVec S_ 1 := (fun x v => Host.reduce IntOp.andi x v reducesTo_S1024x2048_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x2048 .f32) (main_arg6 : FVec F S1024 .f32) (main_arg7 : FVec F S1024x2048 .f32) (main_arg8 : FVec F S1024 .f32) (main_arg9 : FVec F S1024x2048 .f32) (main_arg10 : FVec F S1024 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x2048 .f32 := Host.absf main_arg5
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x1024 .f32) (main_arg1 : FVec F S16384x1024 .f32) (main_arg2 : FVec F S16384x1024 .f32) (main_arg3 : FVec F S1024x2048 .f32) (main_arg4 : FVec F S1024 .f32) (main_arg5 : FVec F S1024x2048 .f32) (main_arg6 : FVec F S1024 .f32) (main_arg7 : FVec F S1024x2048 .f32) (main_arg8 : FVec F S1024 .f32) (main_arg9 : FVec F S1024x2048 .f32) (main_arg10 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_arg6 main_arg7 main_arg8 main_arg9 main_arg10 main_v13 main_v16
-- ==== Kernel.lean ====
abbrev S16384x1024 : Shape := ⟨2, ![16384, 1024]⟩
abbrev S1024x2048 : Shape := ⟨2, ![1024, 2048]⟩
abbrev S1024 : Shape := ⟨1, ![1024]⟩
abbrev S1024x1024 : Shape := ⟨2, ![1024, 1024]⟩
abbrev S4096x1024 : Shape := ⟨2, ![4096, 1024]⟩
abbrev S1024x4096 : Shape := ⟨2, ![1024, 4096]⟩
abbrev S4096 : Shape := ⟨1, ![4096]⟩
abbrev S128x1024 : Shape := ⟨2, ![128, 1024]⟩
abbrev S128x4096 : Shape := ⟨2, ![128, 4096]⟩
abbrev S1x4096 : Shape := ⟨2, ![1, 4096]⟩

abbrev nBuf : Space → Nat
  | .hbm => 28
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x2048, .f32⟩
  | .hbm, ⟨4, _⟩ => ⟨S1024, .f32⟩
  | .hbm, ⟨5, _⟩ => ⟨S1024x2048, .f32⟩
  | .hbm, ⟨6, _⟩ => ⟨S1024, .f32⟩
  | .hbm, ⟨7, _⟩ => ⟨S1024x2048, .f32⟩
  | .hbm, ⟨8, _⟩ => ⟨S1024, .f32⟩
  | .hbm, ⟨9, _⟩ => ⟨S1024x2048, .f32⟩
  | .hbm, ⟨10, _⟩ => ⟨S1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S4096x1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S4096x1024, .f32⟩
  | .hbm, ⟨21, _⟩ => ⟨S1024x4096, .f32⟩
  | .hbm, ⟨22, _⟩ => ⟨S1024x4096, .bf16⟩
  | .hbm, ⟨23, _⟩ => ⟨S1024x4096, .f32⟩
  | .hbm, ⟨24, _⟩ => ⟨S1024x4096, .bf16⟩
  | .hbm, ⟨25, _⟩ => ⟨S4096, .f32⟩
  | .hbm, ⟨26, _⟩ => ⟨S16384x1024, .f32⟩
  | .hbm, ⟨27, _⟩ => ⟨S16384x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1024x4096, .bf16⟩
  | .local _ .vmem, ⟨7, _⟩ => ⟨S1024x4096, .bf16⟩
  | .local _ .vmem, ⟨8, _⟩ => ⟨S4096, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S1024x2048_S1024x1024_0_0 : S1024x2048.Slices ![0, 0] S1024x1024
  concatenates_S1024x1024_S1024x1024_S1024x1024_S1024x1024_S4096x1024_d0 : Shape.Concatenates [S1024x1024, S1024x1024, S1024x1024, S1024x1024] S4096x1024 0
  slices_S1024x2048_S1024x1024_0_1024 : S1024x2048.Slices ![0, 1024] S1024x1024
  transposes_S4096x1024_S1024x4096_1_0 : S4096x1024.Transposes [1, 0] S1024x4096
  bitsLt_bf16_f32 : FTy.bits .bf16 < FTy.bits .f32
  concatenates_S1024_S1024_S1024_S1024_S4096_d0 : Shape.Concatenates [S1024, S1024, S1024, S1024] S4096 0
  inb_S128x1024_S128x1024_0_0 : ∀ a, (![0, 0] : Fin 2 → Nat) a + S128x1024.size a ≤ S128x1024.size a
  h_S128x1024 : 0 < S128x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096_S4096_0 : ∀ a, (![0] : Fin 1 → Nat) a + S4096.size a ≤ S4096.size a
  h_S4096 : 0 < S4096.numel
  shapeCasts_S4096_S4096 : S4096.ShapeCasts S4096
  shapeCasts_S4096_S1x4096 : S4096.ShapeCasts S1x4096
  broadcasts_S1x4096_S128x4096 : S1x4096.Broadcasts S128x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  dot_S128x1024_S1024x4096_S128x4096_1_0_0_1_n_n_wf : DotDims.WF S128x1024 S1024x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S16384x1024.size a
  hwx0_0 : ∀ i : grid0.Coords, EltTy.bits .f32 = 32 ∨ (Rect.block (s := S16384x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S16384x1024.size a
  hwx0_1 : ∀ i : grid0.Coords, EltTy.bits .f32 = 32 ∨ (Rect.block (s := S16384x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S16384x1024.size a
  hwx0_2 : ∀ i : grid0.Coords, EltTy.bits .f32 = 32 ∨ (Rect.block (s := S16384x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096.size a ≤ S4096.size a
  hwx0_5 : ∀ i : grid0.Coords, EltTy.bits .f32 = 32 ∨ (Rect.block (s := S4096) S4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S16384x1024.size a
  hwx0_6 : ∀ i : grid0.Coords, EltTy.bits .f32 = 32 ∨ (Rect.block (s := S16384x1024) S128x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1024.size a ≤ S16384x1024.size a
  hwx0_7 : ∀ i : grid0.Coords, EltTy.bits .f32 = 32 ∨ (Rect.block (s := S16384x1024) S128x1024.size (cc0_transform_7 i) (hinb0_7 i)).WholeWords (EltTy.packing .f32)

variable [Facts₀]

def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15_0) S128x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v15_1) S128x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x2048 : Shape := ⟨2, ![1024, 2048]⟩
abbrev S1024 : Shape := ⟨1, ![1024]⟩
abbrev S16384x2048 : Shape := ⟨2, ![16384, 2048]⟩
abbrev S4096x2048 : Shape := ⟨2, ![4096, 2048]⟩
abbrev S4096 : Shape := ⟨1, ![4096]⟩
abbrev S2048x4096 : Shape := ⟨2, ![2048, 4096]⟩
abbrev S16384x4096 : Shape := ⟨2, ![16384, 4096]⟩
abbrev S1x4096 : Shape := ⟨2, ![1, 4096]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x2048, .f32⟩
  | .hbm, ⟨4, _⟩ => ⟨S1024, .f32⟩
  | .hbm, ⟨5, _⟩ => ⟨S1024x2048, .f32⟩
  | .hbm, ⟨6, _⟩ => ⟨S1024, .f32⟩
  | .hbm, ⟨7, _⟩ => ⟨S1024x2048, .f32⟩
  | .hbm, ⟨8, _⟩ => ⟨S1024, .f32⟩
  | .hbm, ⟨9, _⟩ => ⟨S1024x2048, .f32⟩
  | .hbm, ⟨10, _⟩ => ⟨S1024, .f32⟩
  | .hbm, ⟨11, _⟩ => ⟨S16384x2048, .f32⟩
  | .hbm, ⟨12, _⟩ => ⟨S4096x2048, .f32⟩
  | .hbm, ⟨13, _⟩ => ⟨S4096, .f32⟩
  | .hbm, ⟨14, _⟩ => ⟨S2048x4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  concatenates_S16384x1024_S16384x1024_S16384x2048_d1 : Shape.Concatenates [S16384x1024, S16384x1024] S16384x2048 1
  concatenates_S1024x2048_S1024x2048_S1024x2048_S1024x2048_S4096x2048_d0 : Shape.Concatenates [S1024x2048, S1024x2048, S1024x2048, S1024x2048] S4096x2048 0
  concatenates_S1024_S1024_S1024_S1024_S4096_d0 : Shape.Concatenates [S1024, S1024, S1024, S1024] S4096 0
  transposes_S4096x2048_S2048x4096_1_0 : S4096x2048.Transposes [1, 0] S2048x4096
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  slices_S16384x4096_S16384x1024_0_0 : S16384x4096.Slices ![0, 0] S16384x1024
  slices_S16384x4096_S16384x1024_0_1024 : S16384x4096.Slices ![0, 1024] S16384x1024
  slices_S16384x4096_S16384x1024_0_2048 : S16384x4096.Slices ![0, 2048] S16384x1024
  slices_S16384x4096_S16384x1024_0_3072 : S16384x4096.Slices ![0, 3072] S16384x1024
  bcast_S_S16384x1024 : S_.BroadcastsInDim S16384x1024 (![] : Fin 0 → Fin S16384x1024.rank)
  dot_S16384x2048_S2048x4096_S16384x4096_1_0_0_1_n_n_wf : DotDims.WF S16384x2048 S2048x4096 S16384x4096 [1] [0] [0] [1] [] []

variable [Facts₀]

def dot_S16384x2048_S2048x4096_S16384x4096_1_0_0_1_n_n : DotDims S16384x2048 S2048x4096 S16384x4096 where
  lhsContracting := [1]
  rhsContracting := [0]
  lhsNonContracting := [0]
  rhsNonContracting := [1]
  lhsBatch := []
  rhsBatch := []
  wf := dot_S16384x2048_S2048x4096_S16384x4096_1_0_0_1_n_n_wf

class Facts : Prop extends Facts₀ where

variable [Facts]
-- ==== Proof.LaunchBits.lean ====
/-
  The launch of the LSTM-cell kernel: that the program runs to its end without a fault and what its arrays hold then.

  The program first prepares, on the host, the two transposed weight matrices (columns 0 to 1023 of the four gates' weights
  stacked and transposed, and columns 1024 to 2047 likewise) and the stacked bias, and then runs one kernel over a grid of 128
  points. At point t the kernel is handed rows 128 t to 128 t + 127 of x, h and c, the two whole weight matrices and the
  whole bias (their block index never moves, so they are fetched once), and two output blocks of 128 rows. Its body loads
  its six inputs whole, computes, and overwrites each output block whole, so what an output block holds afterwards is a
  function of the six input blocks alone (`out0_6`, `out0_7`), whatever it held before.

  From this: every input window's buffer holds its block at every point; the body's specification at one point
  (`sound_kernel`); the bookkeeping of all points (`dats`); the run of the whole program (`run_main`), after which each
  output array is what the points wrote back and every other array is what it was when the kernel was entered; and the
  program's arguments, which no host operation and no point writes, end as they started (`frame`).
-/
import proofs.«170980_j3685081940484_1_alg».proof.Proof.Gen.Kernel.Launch
import proofs.«170980_j3685081940484_1_alg».proof.Proof.Gen.Kernel.Skeleton
import proofs.«170980_j3685081940484_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Launched

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the kernel -/

/-- What each buffer of core `c` holds when the kernel is entered: the start memory after the fifteen host operations. -/
abbrev V (c : Dev nD) (b : Ref sig .tc) : Buf (Elt F) ((c : Thread nD τ).loc b) := StableHlo.after hostOps0 (fun b => m (c, b)) b

/-- No host operation allocates a buffer of its own. -/
theorem hostOps0_fresh : (hostOps0 : List (HloOp τ sig (Elt F))).Forall fun op => op.fresh = ∅ := by
  simp only [List.Forall]; repeat' constructor

/-- The program is its host operations followed by the kernel's launch, which finds the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- None of the host operations before the kernel writes argument 0: the kernel finds it as the program was started with. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, Finset.mem_singleton]
    repeat' apply And.intro
    all_goals exact StableHlo.devRef_ne_of_ne (by decide)))
/-- None of the host operations before the kernel writes argument 1: the kernel finds it as the program was started with. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, Finset.mem_singleton]
    repeat' apply And.intro
    all_goals exact StableHlo.devRef_ne_of_ne (by decide)))
/-- None of the host operations before the kernel writes argument 2: the kernel finds it as the program was started with. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, Finset.mem_singleton]
    repeat' apply And.intro
    all_goals exact StableHlo.devRef_ne_of_ne (by decide)))
/-- None of the host operations before the kernel writes argument 3: the kernel finds it as the program was started with. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, Finset.mem_singleton]
    repeat' apply And.intro
    all_goals exact StableHlo.devRef_ne_of_ne (by decide)))
/-- None of the host operations before the kernel writes argument 4: the kernel finds it as the program was started with. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, Finset.mem_singleton]
    repeat' apply And.intro
    all_goals exact StableHlo.devRef_ne_of_ne (by decide)))
/-- None of the host operations before the kernel writes argument 5: the kernel finds it as the program was started with. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, Finset.mem_singleton]
    repeat' apply And.intro
    all_goals exact StableHlo.devRef_ne_of_ne (by decide)))
/-- None of the host operations before the kernel writes argument 6: the kernel finds it as the program was started with. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, Finset.mem_singleton]
    repeat' apply And.intro
    all_goals exact StableHlo.devRef_ne_of_ne (by decide)))
/-- None of the host operations before the kernel writes argument 7: the kernel finds it as the program was started with. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, Finset.mem_singleton]
    repeat' apply And.intro
    all_goals exact StableHlo.devRef_ne_of_ne (by decide)))
/-- None of the host operations before the kernel writes argument 8: the kernel finds it as the program was started with. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, Finset.mem_singleton]
    repeat' apply And.intro
    all_goals exact StableHlo.devRef_ne_of_ne (by decide)))
/-- None of the host operations before the kernel writes argument 9: the kernel finds it as the program was started with. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, Finset.mem_singleton]
    repeat' apply And.intro
    all_goals exact StableHlo.devRef_ne_of_ne (by decide)))
/-- None of the host operations before the kernel writes argument 10: the kernel finds it as the program was started with. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, Finset.mem_singleton]
    repeat' apply And.intro
    all_goals exact StableHlo.devRef_ne_of_ne (by decide)))

/-! ## The windows' blocks -/

/-- Window `w`'s block at grid point `t`, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every grid point, whether the block was fetched at that point or
    kept from an earlier one (its block index has not moved since), for any bookkeeping whose array is the entry contents
    and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block at every grid point, whether the block was fetched at that point or
    kept from an earlier one (its block index has not moved since), for any bookkeeping whose array is the entry contents
    and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block at every grid point, whether the block was fetched at that point or
    kept from an earlier one (its block index has not moved since), for any bookkeeping whose array is the entry contents
    and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block at every grid point, whether the block was fetched at that point or
    kept from an earlier one (its block index has not moved since), for any bookkeeping whose array is the entry contents
    and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block at every grid point, whether the block was fetched at that point or
    kept from an earlier one (its block index has not moved since), for any bookkeeping whose array is the entry contents
    and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current buffer holds its block at every grid point, whether the block was fetched at that point or
    kept from an earlier one (its block index has not moved since), for any bookkeeping whose array is the entry contents
    and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- In a final state in which every window's array is what the bookkeeping computes and every other buffer is as the
    kernel found it, the eleven arguments are the start memory's: the three the kernel reads through windows are never
    written back, and the eight it does not see are buffers no window touches; each is then the start memory's by
    `V_main_arg…`. -/
theorem args_kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).1 0).trans (((dats 0 c).arrAt_in 0 rfl _).trans ((hA c 0).trans (V_main_arg0 m c))),
    ((h c).1 1).trans (((dats 0 c).arrAt_in 1 rfl _).trans ((hA c 1).trans (V_main_arg1 m c))),
    ((h c).1 2).trans (((dats 0 c).arrAt_in 2 rfl _).trans ((hA c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c)⟩

/-- So a run to such a final state is a run after which the arguments are unchanged. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => args_kept m dats hA r h c) h

/-! ## The body's accesses -/

/-- The whole 128 x 1024 block. -/
abbrev rAct : Rect S128x1024 := Rect.unit (s := S128x1024) ![0, 0] S128x1024.size inb_S128x1024_S128x1024_0_0
/-- The whole 1024 x 4096 weight matrix. -/
abbrev rWt : Rect S1024x4096 := Rect.unit (s := S1024x4096) ![0, 0] S1024x4096.size inb_S1024x4096_S1024x4096_0_0
/-- The whole bias of 4096 entries. -/
abbrev rBias : Rect S4096 := Rect.unit (s := S4096) ![0] S4096.size inb_S4096_S4096_0

/-! ## What the body leaves in each output block -/

/-- The new hidden state's block: the body's one store into it, of the six inputs' blocks. -/
def out0_6 (x0 x1 x2 : Vec F S128x1024 .f32) (x3 x4 : Vec F S1024x4096 .bf16) (x5 : Vec F S4096 .f32) : Vec F S128x1024 .f32 :=
  View.canon [⟨rAct, k0_pay3 (View.ld x0 rAct) (View.ld x1 rAct) (View.ld x3 rWt) (View.ld x4 rWt) (View.ld x5 rBias) (View.ld x2 rAct)⟩]

/-- The new cell state's block: the body's one store into it, of the six inputs' blocks. -/
def out0_7 (x0 x1 x2 : Vec F S128x1024 .f32) (x3 x4 : Vec F S1024x4096 .bf16) (x5 : Vec F S4096 .f32) : Vec F S128x1024 .f32 :=
  View.canon [⟨rAct, k0_pay2 (View.ld x0 rAct) (View.ld x1 rAct) (View.ld x3 rWt) (View.ld x4 rWt) (View.ld x5 rBias) (View.ld x2 rAct)⟩]

/-- The one store covers the block. -/
theorem cover_act (p0 : Vec F S128x1024 .f32) (y : S128x1024.Idx) :
    ∃ pc ∈ ([⟨rAct, p0⟩] : List (View.Piece (Elt F) S128x1024 .f32)), y ∈ pc.1.set :=
  View.cover_of_tiled [⟨rAct, p0⟩] S128x1024.size (by rfl) y

/-! ## The body at one point -/

set_option maxHeartbeats 1000000 in
/-- The body on whole buffers, the six inputs' at contents `x0 … x5` and the two outputs' at anything, runs to the
    continuation with the inputs' buffers as they were and the outputs' at `out0_6` and `out0_7` of the inputs. -/
theorem sound_kernel (c : Dev nD) (E : Set ℕ) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S1024x4096 .bf16) (harg4 : arg4.IsWhole) (arg5 : Memref sig .tc .vmem S1024x4096 .bf16) (harg5 : arg5.IsWhole) (arg6 : Memref sig .tc .vmem S4096 .f32) (harg6 : arg6.IsWhole) (arg7 : Memref sig .tc .vmem S128x1024 .f32) (harg7 : arg7.IsWhole) (arg8 : Memref sig .tc .vmem S128x1024 .f32) (harg8 : arg8.IsWhole)
    (x0 x1 x2 : Vec F S128x1024 .f32) (x3 x4 : Vec F S1024x4096 .bf16) (x5 : Vec F S4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_act _)
  iexists _; isplitr
  swap; · iexact H7
  ipureintro
  exact View.read_writes_eq_canon _ _ _ (cover_act _)

/-! ## The bookkeeping of all points -/

/-- On core `c`: the arrays as the kernel finds them; after the body at point `t` each input's buffer at its block
    and each output's at `out0_…` of the input blocks; nothing else touched, nothing owed, full ownership. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
    | ⟨7, _⟩ => out0_7 (iblk m c 0 t) (iblk m c 1 t) (iblk m c 2 t) (iblk m c 3 t) (iblk m c 4 t) (iblk m c 5 t)
  Φ _ := Pipeline.ΦA spec0 c
  q _ := fullShare
  owed _ := 0

/-- The bookkeeping's arrays are the entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body at a generic point of the grid -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so `sound_kernel` applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body's obligation at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any start memory with every semaphore at zero, every fair execution of the program ends, and then every
    window's array holds what the bookkeeping computes and every other buffer what the kernel found in it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to its end without a fault and its eleven arguments end as they started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Launched

end
-- ==== Proof.LaunchIdeal.lean ====
/-
  The launch of the LSTM-cell kernel: that the program runs to its end without a fault and what its arrays hold then.

  The program first prepares, on the host, the two transposed weight matrices (columns 0 to 1023 of the four gates' weights
  stacked and transposed, and columns 1024 to 2047 likewise) and the stacked bias, and then runs one kernel over a grid of 128
  points. At point t the kernel is handed rows 128 t to 128 t + 127 of x, h and c, the two whole weight matrices and the
  whole bias (their block index never moves, so they are fetched once), and two output blocks of 128 rows. Its body loads
  its six inputs whole, computes, and overwrites each output block whole, so what an output block holds afterwards is a
  function of the six input blocks alone (`out0_6`, `out0_7`), whatever it held before.

  From this: every input window's buffer holds its block at every point; the body's specification at one point
  (`sound_kernel`); the bookkeeping of all points (`dats`); the run of the whole program (`run_main`), after which each
  output array is what the points wrote back and every other array is what it was when the kernel was entered; and the
  program's arguments, which no host operation and no point writes, end as they started (`frame`).
-/
import proofs.«170980_j3685081940484_1_alg».proof.Proof.Gen.KernelIdeal.Launch
import proofs.«170980_j3685081940484_1_alg».proof.Proof.Gen.KernelIdeal.Skeleton
import proofs.«170980_j3685081940484_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Launched

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the kernel -/

/-- What each buffer of core `c` holds when the kernel is entered: the start memory after the fifteen host operations. -/
abbrev V (c : Dev nD) (b : Ref sig .tc) : Buf (Elt F) ((c : Thread nD τ).loc b) := StableHlo.after hostOps0 (fun b => m (c, b)) b

/-- No host operation allocates a buffer of its own. -/
theorem hostOps0_fresh : (hostOps0 : List (HloOp τ sig (Elt F))).Forall fun op => op.fresh = ∅ := by
  simp only [List.Forall]; repeat' constructor

/-- The program is its host operations followed by the kernel's launch, which finds the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- None of the host operations before the kernel writes argument 0: the kernel finds it as the program was started with. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, Finset.mem_singleton]
    repeat' apply And.intro
    all_goals exact StableHlo.devRef_ne_of_ne (by decide)))
/-- None of the host operations before the kernel writes argument 1: the kernel finds it as the program was started with. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, Finset.mem_singleton]
    repeat' apply And.intro
    all_goals exact StableHlo.devRef_ne_of_ne (by decide)))
/-- None of the host operations before the kernel writes argument 2: the kernel finds it as the program was started with. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, Finset.mem_singleton]
    repeat' apply And.intro
    all_goals exact StableHlo.devRef_ne_of_ne (by decide)))
/-- None of the host operations before the kernel writes argument 3: the kernel finds it as the program was started with. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, Finset.mem_singleton]
    repeat' apply And.intro
    all_goals exact StableHlo.devRef_ne_of_ne (by decide)))
/-- None of the host operations before the kernel writes argument 4: the kernel finds it as the program was started with. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, Finset.mem_singleton]
    repeat' apply And.intro
    all_goals exact StableHlo.devRef_ne_of_ne (by decide)))
/-- None of the host operations before the kernel writes argument 5: the kernel finds it as the program was started with. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, Finset.mem_singleton]
    repeat' apply And.intro
    all_goals exact StableHlo.devRef_ne_of_ne (by decide)))
/-- None of the host operations before the kernel writes argument 6: the kernel finds it as the program was started with. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, Finset.mem_singleton]
    repeat' apply And.intro
    all_goals exact StableHlo.devRef_ne_of_ne (by decide)))
/-- None of the host operations before the kernel writes argument 7: the kernel finds it as the program was started with. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, Finset.mem_singleton]
    repeat' apply And.intro
    all_goals exact StableHlo.devRef_ne_of_ne (by decide)))
/-- None of the host operations before the kernel writes argument 8: the kernel finds it as the program was started with. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, Finset.mem_singleton]
    repeat' apply And.intro
    all_goals exact StableHlo.devRef_ne_of_ne (by decide)))
/-- None of the host operations before the kernel writes argument 9: the kernel finds it as the program was started with. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, Finset.mem_singleton]
    repeat' apply And.intro
    all_goals exact StableHlo.devRef_ne_of_ne (by decide)))
/-- None of the host operations before the kernel writes argument 10: the kernel finds it as the program was started with. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, Finset.mem_singleton]
    repeat' apply And.intro
    all_goals exact StableHlo.devRef_ne_of_ne (by decide)))

/-! ## The windows' blocks -/

/-- Window `w`'s block at grid point `t`, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every grid point, whether the block was fetched at that point or
    kept from an earlier one (its block index has not moved since), for any bookkeeping whose array is the entry contents
    and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block at every grid point, whether the block was fetched at that point or
    kept from an earlier one (its block index has not moved since), for any bookkeeping whose array is the entry contents
    and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block at every grid point, whether the block was fetched at that point or
    kept from an earlier one (its block index has not moved since), for any bookkeeping whose array is the entry contents
    and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block at every grid point, whether the block was fetched at that point or
    kept from an earlier one (its block index has not moved since), for any bookkeeping whose array is the entry contents
    and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block at every grid point, whether the block was fetched at that point or
    kept from an earlier one (its block index has not moved since), for any bookkeeping whose array is the entry contents
    and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current buffer holds its block at every grid point, whether the block was fetched at that point or
    kept from an earlier one (its block index has not moved since), for any bookkeeping whose array is the entry contents
    and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- In a final state in which every window's array is what the bookkeeping computes and every other buffer is as the
    kernel found it, the eleven arguments are the start memory's: the three the kernel reads through windows are never
    written back, and the eight it does not see are buffers no window touches; each is then the start memory's by
    `V_main_arg…`. -/
theorem args_kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).1 0).trans (((dats 0 c).arrAt_in 0 rfl _).trans ((hA c 0).trans (V_main_arg0 m c))),
    ((h c).1 1).trans (((dats 0 c).arrAt_in 1 rfl _).trans ((hA c 1).trans (V_main_arg1 m c))),
    ((h c).1 2).trans (((dats 0 c).arrAt_in 2 rfl _).trans ((hA c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c)⟩

/-- So a run to such a final state is a run after which the arguments are unchanged. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => args_kept m dats hA r h c) h

/-! ## The body's accesses -/

/-- The whole 128 x 1024 block. -/
abbrev rAct : Rect S128x1024 := Rect.unit (s := S128x1024) ![0, 0] S128x1024.size inb_S128x1024_S128x1024_0_0
/-- The whole 1024 x 4096 weight matrix. -/
abbrev rWt : Rect S1024x4096 := Rect.unit (s := S1024x4096) ![0, 0] S1024x4096.size inb_S1024x4096_S1024x4096_0_0
/-- The whole bias of 4096 entries. -/
abbrev rBias : Rect S4096 := Rect.unit (s := S4096) ![0] S4096.size inb_S4096_S4096_0

/-! ## What the body leaves in each output block -/

/-- The new hidden state's block: the body's one store into it, of the six inputs' blocks. -/
def out0_6 (x0 x1 x2 : Vec F S128x1024 .f32) (x3 x4 : Vec F S1024x4096 .bf16) (x5 : Vec F S4096 .f32) : Vec F S128x1024 .f32 :=
  View.canon [⟨rAct, k0_pay3 (View.ld x0 rAct) (View.ld x1 rAct) (View.ld x3 rWt) (View.ld x4 rWt) (View.ld x5 rBias) (View.ld x2 rAct)⟩]

/-- The new cell state's block: the body's one store into it, of the six inputs' blocks. -/
def out0_7 (x0 x1 x2 : Vec F S128x1024 .f32) (x3 x4 : Vec F S1024x4096 .bf16) (x5 : Vec F S4096 .f32) : Vec F S128x1024 .f32 :=
  View.canon [⟨rAct, k0_pay2 (View.ld x0 rAct) (View.ld x1 rAct) (View.ld x3 rWt) (View.ld x4 rWt) (View.ld x5 rBias) (View.ld x2 rAct)⟩]

/-- The one store covers the block. -/
theorem cover_act (p0 : Vec F S128x1024 .f32) (y : S128x1024.Idx) :
    ∃ pc ∈ ([⟨rAct, p0⟩] : List (View.Piece (Elt F) S128x1024 .f32)), y ∈ pc.1.set :=
  View.cover_of_tiled [⟨rAct, p0⟩] S128x1024.size (by rfl) y

/-! ## The body at one point -/

set_option maxHeartbeats 1000000 in
/-- The body on whole buffers, the six inputs' at contents `x0 … x5` and the two outputs' at anything, runs to the
    continuation with the inputs' buffers as they were and the outputs' at `out0_6` and `out0_7` of the inputs. -/
theorem sound_kernel (c : Dev nD) (E : Set ℕ) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S1024x4096 .bf16) (harg4 : arg4.IsWhole) (arg5 : Memref sig .tc .vmem S1024x4096 .bf16) (harg5 : arg5.IsWhole) (arg6 : Memref sig .tc .vmem S4096 .f32) (harg6 : arg6.IsWhole) (arg7 : Memref sig .tc .vmem S128x1024 .f32) (harg7 : arg7.IsWhole) (arg8 : Memref sig .tc .vmem S128x1024 .f32) (harg8 : arg8.IsWhole)
    (x0 x1 x2 : Vec F S128x1024 .f32) (x3 x4 : Vec F S1024x4096 .bf16) (x5 : Vec F S4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_act _)
  iexists _; isplitr
  swap; · iexact H7
  ipureintro
  exact View.read_writes_eq_canon _ _ _ (cover_act _)

/-! ## The bookkeeping of all points -/

/-- On core `c`: the arrays as the kernel finds them; after the body at point `t` each input's buffer at its block
    and each output's at `out0_…` of the input blocks; nothing else touched, nothing owed, full ownership. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
    | ⟨7, _⟩ => out0_7 (iblk m c 0 t) (iblk m c 1 t) (iblk m c 2 t) (iblk m c 3 t) (iblk m c 4 t) (iblk m c 5 t)
  Φ _ := Pipeline.ΦA spec0 c
  q _ := fullShare
  owed _ := 0

/-- The bookkeeping's arrays are the entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body at a generic point of the grid -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so `sound_kernel` applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body's obligation at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any start memory with every semaphore at zero, every fair execution of the program ends, and then every
    window's array holds what the bookkeeping computes and every other buffer what the kernel found in it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to its end without a fault and its eleven arguments end as they started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Launched

end
-- ==== Proof.Spec.lean ====
/-
  One step of an LSTM cell over a batch, as functions on the extended reals.

  The inputs are the activations x and the previous hidden and cell states h and c, each 16384 rows of 1024 entries, and
  for each of the four gates (input i, forget f, candidate g, output o) a weight matrix W of 1024 rows and 2048 columns
  and a bias b of 1024 entries. Row j of a gate's W acts on the row (x r, h r) of length 2048: its first 1024 columns
  meet x r and its last 1024 columns meet h r. The gate's pre-activation at batch row r and unit j is therefore

      pre W b x h r j = (sum over q < 1024 of x(r, q) * W(j, q)) + (sum over q < 1024 of h(r, q) * W(j, 1024 + q)) + b(j).

  With sigma the logistic function 1 / (1 + exp(-t)) the new states are

      cNext(r, j) = sigma(pre_f) * c(r, j) + sigma(pre_i) * tanh(pre_g)
      hNext(r, j) = sigma(pre_o) * tanh(cNext(r, j)).

  The only law about sums used anywhere is that a sum over 2048 positions is the sum over the first 1024 plus the sum
  over the last 1024 (`sum_halves`): sums in a commutative monoid may be regrouped, and no finiteness is needed.
-/
import Idealize.ShloMosaic.PureOps.Ideal.Laws
import Idealize.ShloMosaic.Lib.ValueIdx

noncomputable section

open scoped BigOperators

namespace Cert.Lstm

open Idealize.ShloMosaic Idealize.ShloMosaic.ValueIdx

/-- A batch of rows: 16384 rows of 1024 entries. -/
abbrev Acts := (⟨2, ![16384, 1024]⟩ : Shape).Idx → EReal
/-- One gate's weights: 1024 rows (one per unit) of 2048 columns. -/
abbrev Wts := (⟨2, ![1024, 2048]⟩ : Shape).Idx → EReal
/-- One gate's bias: one entry per unit. -/
abbrev Bias := (⟨1, ![1024]⟩ : Shape).Idx → EReal

/-- Column q of the first half of a weight row (the half that meets x). -/
abbrev lo (q : Fin 1024) : Fin 2048 := ⟨q.val, by have := q.isLt; omega⟩
/-- Column q of the second half of a weight row (the half that meets h). -/
abbrev hi (q : Fin 1024) : Fin 2048 := ⟨1024 + q.val, by have := q.isLt; omega⟩

/-- A sum over 2048 positions is the sum over the first 1024 plus the sum over the last 1024. -/
theorem sum_halves {β : Type*} [AddCommMonoid β] (f : Fin 2048 → β) :
    ∑ k : Fin 2048, f k = (∑ q : Fin 1024, f (lo q)) + ∑ q : Fin 1024, f (hi q) :=
  Fin.sum_univ_add (a := 1024) (b := 1024) (f : Fin (1024 + 1024) → β)

/-- The pre-activation of one gate at batch row r and unit j. -/
def pre (W : Wts) (b : Bias) (x h : Acts) (r : Fin 16384) (j : Fin 1024) : EReal :=
  (∑ q : Fin 1024, x (ix2 r q) * W (ix2 j (lo q))) + (∑ q : Fin 1024, h (ix2 r q) * W (ix2 j (hi q))) + b (ix1 j)

/-- The new cell state at batch row r and unit j. -/
def cAt (Wi Wf Wg : Wts) (bi bf bg : Bias) (x h c : Acts) (r : Fin 16384) (j : Fin 1024) : EReal :=
  Ideal.logistic (pre Wf bf x h r j) * c (ix2 r j) + Ideal.logistic (pre Wi bi x h r j) * Ideal.tanh (pre Wg bg x h r j)

/-- The new hidden state at batch row r and unit j. -/
def hAt (Wi Wf Wg Wo : Wts) (bi bf bg bo : Bias) (x h c : Acts) (r : Fin 16384) (j : Fin 1024) : EReal :=
  Ideal.logistic (pre Wo bo x h r j) * Ideal.tanh (cAt Wi Wf Wg bi bf bg x h c r j)

/-- The new cell state as an array. -/
def cNext (Wi Wf Wg : Wts) (bi bf bg : Bias) (x h c : Acts) : Acts := fun i => cAt Wi Wf Wg bi bf bg x h c (i 0) (i 1)

/-- The new hidden state as an array. -/
def hNext (Wi Wf Wg Wo : Wts) (bi bf bg bo : Bias) (x h c : Acts) : Acts := fun i => hAt Wi Wf Wg Wo bi bf bg bo x h c (i 0) (i 1)

theorem cNext_apply (Wi Wf Wg : Wts) (bi bf bg : Bias) (x h c : Acts) (r : Fin 16384) (j : Fin 1024) :
    cNext Wi Wf Wg bi bf bg x h c (ix2 r j) = cAt Wi Wf Wg bi bf bg x h c r j := rfl

theorem hNext_apply (Wi Wf Wg Wo : Wts) (bi bf bg bo : Bias) (x h c : Acts) (r : Fin 16384) (j : Fin 1024) :
    hNext Wi Wf Wg Wo bi bf bg bo x h c (ix2 r j) = hAt Wi Wf Wg Wo bi bf bg bo x h c r j := rfl

/-- The single-precision pattern 0x3F800000 is the number one. -/
theorem one_f32 : Ideal.ofBits .f32 0x3F800000#32 = 1 := by
  simp [Ideal.ofBits, Ideal.ieee, -EReal.coe_mul]; norm_num

/-- The logistic function spelt with the host's operations: one over one plus the exponential of the negation. -/
theorem logistic_spelt (t : EReal) : Ideal.div 1 (1 + Ideal.exp (-t)) = Ideal.logistic t := rfl

end Cert.Lstm
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.Payload.lean ====
/-
  What the kernel's body computes, entry by entry, at the ideal values.

  The body forms one 128 x 4096 block of pre-activations, the four gates side by side: at row p and column k it is

      gates p k = (sum over q of xblk(p, q) * wx(q, k)) + (sum over q of hblk(p, q) * wh(q, k)) + bias(k),

  the two matrix products each accumulated into zeros, a narrowing of the factors that changes nothing at the ideal
  values, and the bias row repeated down the block. Columns j, 1024 + j, 2048 + j and 3072 + j of that block are the
  input, forget, candidate and output gates of unit j. The block stored as the new cell state is
  sigma(forget) * c + sigma(input) * tanh(candidate), and the block stored as the new hidden state is
  sigma(output) * tanh(new cell state).

  When the blocks the body loaded are the rows of x, h and c at batch row r, and the weight and bias blocks hold the
  gates' weights and biases at the columns just named, those two entries are the specification's `cAt` and `hAt`.
-/
import proofs.«170980_j3685081940484_1_alg».proof.Proof.Gen.KernelIdeal.Skeleton
import proofs.«170980_j3685081940484_1_alg».proof.Proof.Spec
import proofs.«170980_j3685081940484_1_alg».proof.Proof.LibDotPlain
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Lstm.Kern

open Cert.KernelIdeal Cert.KernelIdeal.Gen Idealize.ShloMosaic Idealize.ShloMosaic.ValueIdx Cert.Lstm

/-- Column of unit j's input gate in the block of four gates. -/
abbrev colI (j : Fin 1024) : Fin 4096 := ⟨j.val, by have := j.isLt; omega⟩
/-- Column of unit j's forget gate. -/
abbrev colF (j : Fin 1024) : Fin 4096 := ⟨1024 + j.val, by have := j.isLt; omega⟩
/-- Column of unit j's candidate gate. -/
abbrev colG (j : Fin 1024) : Fin 4096 := ⟨2048 + j.val, by have := j.isLt; omega⟩
/-- Column of unit j's output gate. -/
abbrev colO (j : Fin 1024) : Fin 4096 := ⟨3072 + j.val, by have := j.isLt; omega⟩

/-- The block of pre-activations at row p and column k. -/
def gates (x0 x1 : FVec Ideal S128x1024 .f32) (w0 w1 : FVec Ideal S1024x4096 .bf16) (b : FVec Ideal S4096 .f32)
    (p : Fin 128) (k : Fin 4096) : EReal :=
  (∑ q : Fin 1024, x0 (ix2 p q) * w0 (ix2 q k)) + (∑ q : Fin 1024, x1 (ix2 p q) * w1 (ix2 q k)) + b (ix1 k)

/-- One of the body's two matrix products at an entry: the sum of products, the narrowed factor read as it is and the
    cast to the same shape the identity. -/
theorem product_at (x : FVec Ideal S128x1024 .f32) (w : FVec Ideal S1024x4096 .bf16) (p : Fin 128) (k : Fin 4096) :
    matmul dot_S128x1024_S1024x4096_S128x4096_1_0_0_1_n_n none (truncf .bf16 x bitsLt_bf16_f32)
        (shapeCast S1024x4096 w shapeCasts_S1024x4096_S1024x4096) (constant S128x4096 .f32 0x00000000#32) (ix2 p k)
      = ∑ q : Fin 1024, x (ix2 p q) * w (ix2 q k) := by
  rw [shapeCast_self]
  exact Cert.LibDotPlain.matmul_zero_plain 128 1024 4096 none (truncf .bf16 x bitsLt_bf16_f32) w p k

/-- The bias, cast to one row and repeated down the block, read at (p, k): entry k of the bias. -/
theorem bias_at (b : FVec Ideal S4096 .f32) (p : Fin 128) (k : Fin 4096) :
    broadcastTo S128x4096 (shapeCast S1x4096 (shapeCast S4096 b shapeCasts_S4096_S4096) shapeCasts_S4096_S1x4096)
        broadcasts_S1x4096_S128x4096 (ix2 p k) = b (ix1 k) := by
  rw [shapeCast_self]
  exact (broadcastTo_1b_ab_apply _ broadcasts_S1x4096_S128x4096 p k).trans (shapeCast_a_1a_apply b shapeCasts_S4096_S1x4096 0 k)

/-- The body's block of pre-activations is `gates`. -/
theorem pay1_at (x0 x1 : FVec Ideal S128x1024 .f32) (w0 w1 : FVec Ideal S1024x4096 .bf16) (b : FVec Ideal S4096 .f32)
    (p : Fin 128) (k : Fin 4096) :
    k0_pay1 (F := Ideal) x0 x1 w0 w1 b (ix2 p k) = gates x0 x1 w0 w1 b p k := by
  unfold k0_pay1 gates
  rw [addf_apply, addf_apply, product_at, product_at, bias_at]

/-- The block stored as the new cell state, at row p and unit j. -/
theorem pay2_at (x0 x1 : FVec Ideal S128x1024 .f32) (w0 w1 : FVec Ideal S1024x4096 .bf16) (b : FVec Ideal S4096 .f32)
    (c0 : FVec Ideal S128x1024 .f32) (p : Fin 128) (j : Fin 1024) :
    k0_pay2 (F := Ideal) x0 x1 w0 w1 b c0 (ix2 p j)
      = Ideal.logistic (gates x0 x1 w0 w1 b p (colF j)) * c0 (ix2 p j)
        + Ideal.logistic (gates x0 x1 w0 w1 b p (colI j)) * Ideal.tanh (gates x0 x1 w0 w1 b p (colG j)) := by
  unfold k0_pay2
  rw [addf_apply, mulf_apply, mulf_apply]
  show FloatOps.logistic (extractStridedSlice S128x1024 ![0, 1024] (k0_pay1 x0 x1 w0 w1 b) slices_S128x4096_o0_1024_S128x1024 (ix2 p j)) * c0 (ix2 p j)
      + FloatOps.logistic (extractStridedSlice S128x1024 ![0, 0] (k0_pay1 x0 x1 w0 w1 b) slices_S128x4096_o0_0_S128x1024 (ix2 p j))
        * FloatOps.tanh (extractStridedSlice S128x1024 ![0, 2048] (k0_pay1 x0 x1 w0 w1 b) slices_S128x4096_o0_2048_S128x1024 (ix2 p j)) = _
  rw [slice2_axis1_apply 1024 _ slices_S128x4096_o0_1024_S128x1024 p j (colF j) rfl,
    slice2_axis1_apply 0 _ slices_S128x4096_o0_0_S128x1024 p j (colI j) (Nat.zero_add _).symm,
    slice2_axis1_apply 2048 _ slices_S128x4096_o0_2048_S128x1024 p j (colG j) rfl,
    pay1_at, pay1_at, pay1_at]
  rfl

/-- The block stored as the new hidden state, at row p and unit j. -/
theorem pay3_at (x0 x1 : FVec Ideal S128x1024 .f32) (w0 w1 : FVec Ideal S1024x4096 .bf16) (b : FVec Ideal S4096 .f32)
    (c0 : FVec Ideal S128x1024 .f32) (p : Fin 128) (j : Fin 1024) :
    k0_pay3 (F := Ideal) x0 x1 w0 w1 b c0 (ix2 p j)
      = Ideal.logistic (gates x0 x1 w0 w1 b p (colO j)) * Ideal.tanh (k0_pay2 (F := Ideal) x0 x1 w0 w1 b c0 (ix2 p j)) := by
  unfold k0_pay3
  rw [mulf_apply]
  show FloatOps.logistic (extractStridedSlice S128x1024 ![0, 3072] (k0_pay1 x0 x1 w0 w1 b) slices_S128x4096_o0_3072_S128x1024 (ix2 p j))
      * FloatOps.tanh (k0_pay2 (F := Ideal) x0 x1 w0 w1 b c0 (ix2 p j)) = _
  rw [slice2_axis1_apply 3072 _ slices_S128x4096_o0_3072_S128x1024 p j (colO j) rfl, pay1_at]
  rfl

/-- When row p of the x and h blocks is batch row r of x and h, and column k of the weight and bias blocks holds unit
    j's weights and bias of one gate, the block of pre-activations at (p, k) is that gate's pre-activation at (r, j). -/
theorem gates_eq_pre (x0 x1 : FVec Ideal S128x1024 .f32) (w0 w1 : FVec Ideal S1024x4096 .bf16) (b : FVec Ideal S4096 .f32)
    (X H : Acts) (W : Wts) (B : Bias) (p : Fin 128) (k : Fin 4096) (r : Fin 16384) (j : Fin 1024)
    (hx : ∀ q : Fin 1024, x0 (ix2 p q) = X (ix2 r q)) (hh : ∀ q : Fin 1024, x1 (ix2 p q) = H (ix2 r q))
    (hw0 : ∀ q : Fin 1024, w0 (ix2 q k) = W (ix2 j (lo q))) (hw1 : ∀ q : Fin 1024, w1 (ix2 q k) = W (ix2 j (hi q)))
    (hb : b (ix1 k) = B (ix1 j)) :
    gates x0 x1 w0 w1 b p k = pre W B X H r j := by
  unfold gates pre
  simp only [hx, hh, hw0, hw1, hb]

/-- What the weight and bias blocks must hold, for one gate at the column `col j` of unit j. -/
structure GateAt (w0 w1 : FVec Ideal S1024x4096 .bf16) (b : FVec Ideal S4096 .f32) (col : Fin 1024 → Fin 4096) (W : Wts) (B : Bias) : Prop where
  first : ∀ (q : Fin 1024) (j : Fin 1024), w0 (ix2 q (col j)) = W (ix2 j (lo q))
  second : ∀ (q : Fin 1024) (j : Fin 1024), w1 (ix2 q (col j)) = W (ix2 j (hi q))
  bias : ∀ j : Fin 1024, b (ix1 (col j)) = B (ix1 j)

/-- The new cell state's block at (p, j) is the specification's `cAt` at batch row r and unit j. -/
theorem cell_block (x0 x1 c0 : FVec Ideal S128x1024 .f32) (w0 w1 : FVec Ideal S1024x4096 .bf16) (b : FVec Ideal S4096 .f32)
    (X H C : Acts) (Wi Wf Wg : Wts) (bi bf bg : Bias) (p : Fin 128) (r : Fin 16384) (j : Fin 1024)
    (hx : ∀ q : Fin 1024, x0 (ix2 p q) = X (ix2 r q)) (hh : ∀ q : Fin 1024, x1 (ix2 p q) = H (ix2 r q))
    (hc : c0 (ix2 p j) = C (ix2 r j))
    (gI : GateAt w0 w1 b colI Wi bi) (gF : GateAt w0 w1 b colF Wf bf) (gG : GateAt w0 w1 b colG Wg bg) :
    k0_pay2 (F := Ideal) x0 x1 w0 w1 b c0 (ix2 p j) = cAt Wi Wf Wg bi bf bg X H C r j := by
  rw [pay2_at, hc,
    gates_eq_pre x0 x1 w0 w1 b X H Wf bf p (colF j) r j hx hh (fun q => gF.first q j) (fun q => gF.second q j) (gF.bias j),
    gates_eq_pre x0 x1 w0 w1 b X H Wi bi p (colI j) r j hx hh (fun q => gI.first q j) (fun q => gI.second q j) (gI.bias j),
    gates_eq_pre x0 x1 w0 w1 b X H Wg bg p (colG j) r j hx hh (fun q => gG.first q j) (fun q => gG.second q j) (gG.bias j)]
  rfl

/-- The new hidden state's block at (p, j) is the specification's `hAt` at batch row r and unit j. -/
theorem hidden_block (x0 x1 c0 : FVec Ideal S128x1024 .f32) (w0 w1 : FVec Ideal S1024x4096 .bf16) (b : FVec Ideal S4096 .f32)
    (X H C : Acts) (Wi Wf Wg Wo : Wts) (bi bf bg bo : Bias) (p : Fin 128) (r : Fin 16384) (j : Fin 1024)
    (hx : ∀ q : Fin 1024, x0 (ix2 p q) = X (ix2 r q)) (hh : ∀ q : Fin 1024, x1 (ix2 p q) = H (ix2 r q))
    (hc : c0 (ix2 p j) = C (ix2 r j))
    (gI : GateAt w0 w1 b colI Wi bi) (gF : GateAt w0 w1 b colF Wf bf) (gG : GateAt w0 w1 b colG Wg bg)
    (gO : GateAt w0 w1 b colO Wo bo) :
    k0_pay3 (F := Ideal) x0 x1 w0 w1 b c0 (ix2 p j) = hAt Wi Wf Wg Wo bi bf bg bo X H C r j := by
  rw [pay3_at, cell_block x0 x1 c0 w0 w1 b X H C Wi Wf Wg bi bf bg p r j hx hh hc gI gF gG,
    gates_eq_pre x0 x1 w0 w1 b X H Wo bo p (colO j) r j hx hh (fun q => gO.first q j) (fun q => gO.second q j) (gO.bias j)]
  rfl

end Cert.Lstm.Kern

end
-- ==== Proof.HostPrefix.lean ====
/-
  What the kernel finds in the three arrays the host prepares for it.

  Before the kernel runs, the host cuts each gate's 1024 x 2048 weight matrix into its first 1024 columns (which meet
  x) and its last 1024 columns (which meet h), stacks the four gates' halves into a 4096 x 1024 matrix, gate after gate,
  transposes it to 1024 x 4096 and narrows its format, which at the ideal values changes nothing; and it stacks the
  four biases into one vector of 4096 entries. So, at row q and column g * 1024 + j, the first transposed array holds
  gate g's weight at row j and column q, the second holds gate g's weight at row j and column 1024 + q, and entry
  g * 1024 + j of the stacked bias is gate g's bias at j. These are the facts `GateAt` asks for.
-/
import proofs.«170980_j3685081940484_1_alg».proof.Proof.LaunchIdeal
import proofs.«170980_j3685081940484_1_alg».proof.Proof.Payload
import Idealize.ShloMosaic.Lib.StableHlo.Run

set_option maxRecDepth 16384

noncomputable section

open scoped BigOperators

namespace Cert.Lstm.Host

open Cert.KernelIdeal Cert.KernelIdeal.Gen Cert.KernelIdeal.Launched Idealize.ShloMosaic Idealize.ShloMosaic.TcCoe Idealize.ShloMosaic.ValueIdx
  Idealize.SL.Sem Idealize.ShloMosaic.StableHlo Cert.Lstm Cert.Lstm.Kern

/-! ## The prepared arrays as terms -/

/-- Columns o to o + 1023 of the four gates' weight matrices, stacked gate after gate: 4096 rows of 1024. -/
def stacked (o : Nat) (hs : S1024x2048.Slices ![0, o] S1024x1024) (Wi Wf Wg Wo : FVec Ideal S1024x2048 .f32) : FVec Ideal S4096x1024 .f32 :=
  concatenate S4096x1024 0
      [⟨S1024x1024, extractStridedSlice S1024x1024 ![0, o] Wi hs⟩,
       ⟨S1024x1024, extractStridedSlice S1024x1024 ![0, o] Wf hs⟩,
       ⟨S1024x1024, extractStridedSlice S1024x1024 ![0, o] Wg hs⟩,
       ⟨S1024x1024, extractStridedSlice S1024x1024 ![0, o] Wo hs⟩]
      concatenates_S1024x1024_S1024x1024_S1024x1024_S1024x1024_S4096x1024_d0

/-- That stack transposed, in the narrower format. -/
def halfT (o : Nat) (hs : S1024x2048.Slices ![0, o] S1024x1024) (Wi Wf Wg Wo : FVec Ideal S1024x2048 .f32) : FVec Ideal S1024x4096 .bf16 :=
  truncf .bf16 (transpose S1024x4096 [1, 0] (stacked o hs Wi Wf Wg Wo) transposes_S4096x1024_S1024x4096_1_0) bitsLt_bf16_f32

/-- The four biases stacked. -/
def biasCat (bi bf bg bo : FVec Ideal S1024 .f32) : FVec Ideal S4096 .f32 :=
  concatenate S4096 0 [⟨S1024, bi⟩, ⟨S1024, bf⟩, ⟨S1024, bg⟩, ⟨S1024, bo⟩] concatenates_S1024_S1024_S1024_S1024_S4096_d0

section Found
variable (m : (ℓ : Loc nD τ sig) → Buf (Elt Ideal) ℓ)

/-- The array of window 3 when the kernel is entered: the first halves, stacked and transposed. -/
theorem V_v11 (c : Dev nD) : V m c main_v11 = halfT 0 slices_S1024x2048_S1024x1024_0_0 (m ((c : Thread nD τ).loc main_arg3)) (m ((c : Thread nD τ).loc main_arg5)) (m ((c : Thread nD τ).loc main_arg7)) (m ((c : Thread nD τ).loc main_arg9)) := by
  dsimp only [V, hostOps0]; after_results; rfl

/-- The array of window 4: the second halves, stacked and transposed. -/
theorem V_v13 (c : Dev nD) : V m c main_v13 = halfT 1024 slices_S1024x2048_S1024x1024_0_1024 (m ((c : Thread nD τ).loc main_arg3)) (m ((c : Thread nD τ).loc main_arg5)) (m ((c : Thread nD τ).loc main_arg7)) (m ((c : Thread nD τ).loc main_arg9)) := by
  dsimp only [V, hostOps0]; after_results; rfl

/-- The array of window 5: the stacked bias. -/
theorem V_v14 (c : Dev nD) : V m c main_v14 = biasCat (m ((c : Thread nD τ).loc main_arg4)) (m ((c : Thread nD τ).loc main_arg6)) (m ((c : Thread nD τ).loc main_arg8)) (m ((c : Thread nD τ).loc main_arg10)) := by
  dsimp only [V, hostOps0]; after_results; rfl

end Found

/-! ## The stack row by row -/

/-- Row 0 + j of the stack is row j of the input gate's half. -/
theorem stacked_I (o : Nat) (hs : S1024x2048.Slices ![0, o] S1024x1024) (Wi Wf Wg Wo : FVec Ideal S1024x2048 .f32) (j q : Fin 1024) :
    stacked o hs Wi Wf Wg Wo (ix2 (colI j) q) = extractStridedSlice S1024x1024 ![0, o] Wi hs (ix2 j q) := by
  unfold stacked
  exact concatenate_apply_piece 0 _ _ (ix2 (colI j) q) 0 (by simp) S1024x1024 _ rfl rfl 0 rfl (ix2 j q) (fun b hb => match b, hb with
    | ⟨0, _⟩, hb => absurd rfl hb
    | ⟨1, _⟩, _ => rfl) (by show 0 + j.val = j.val; omega)

/-- Row 1024 + j of the stack is row j of the forget gate's half. -/
theorem stacked_F (o : Nat) (hs : S1024x2048.Slices ![0, o] S1024x1024) (Wi Wf Wg Wo : FVec Ideal S1024x2048 .f32) (j q : Fin 1024) :
    stacked o hs Wi Wf Wg Wo (ix2 (colF j) q) = extractStridedSlice S1024x1024 ![0, o] Wf hs (ix2 j q) := by
  unfold stacked
  exact concatenate_apply_piece 0 _ _ (ix2 (colF j) q) 1 (by simp) S1024x1024 _ rfl rfl 1024 rfl (ix2 j q) (fun b hb => match b, hb with
    | ⟨0, _⟩, hb => absurd rfl hb
    | ⟨1, _⟩, _ => rfl) (by show 1024 + j.val = 1024 + j.val; omega)

/-- Row 2048 + j of the stack is row j of the candidate gate's half. -/
theorem stacked_G (o : Nat) (hs : S1024x2048.Slices ![0, o] S1024x1024) (Wi Wf Wg Wo : FVec Ideal S1024x2048 .f32) (j q : Fin 1024) :
    stacked o hs Wi Wf Wg Wo (ix2 (colG j) q) = extractStridedSlice S1024x1024 ![0, o] Wg hs (ix2 j q) := by
  unfold stacked
  exact concatenate_apply_piece 0 _ _ (ix2 (colG j) q) 2 (by simp) S1024x1024 _ rfl rfl 2048 rfl (ix2 j q) (fun b hb => match b, hb with
    | ⟨0, _⟩, hb => absurd rfl hb
    | ⟨1, _⟩, _ => rfl) (by show 2048 + j.val = 2048 + j.val; omega)

/-- Row 3072 + j of the stack is row j of the output gate's half. -/
theorem stacked_O (o : Nat) (hs : S1024x2048.Slices ![0, o] S1024x1024) (Wi Wf Wg Wo : FVec Ideal S1024x2048 .f32) (j q : Fin 1024) :
    stacked o hs Wi Wf Wg Wo (ix2 (colO j) q) = extractStridedSlice S1024x1024 ![0, o] Wo hs (ix2 j q) := by
  unfold stacked
  exact concatenate_apply_piece 0 _ _ (ix2 (colO j) q) 3 (by simp) S1024x1024 _ rfl rfl 3072 rfl (ix2 j q) (fun b hb => match b, hb with
    | ⟨0, _⟩, hb => absurd rfl hb
    | ⟨1, _⟩, _ => rfl) (by show 3072 + j.val = 3072 + j.val; omega)

/-! ## The transposed stack entry by entry -/

/-- Column 0 + j of the transposed stack, at row q, is the input gate's weight at row j and column o + q. -/
theorem halfT_I (o : Nat) (hs : S1024x2048.Slices ![0, o] S1024x1024) (Wi Wf Wg Wo : FVec Ideal S1024x2048 .f32) (q j : Fin 1024)
    (k : Fin 2048) (hk : k.val = o + q.val) :
    halfT o hs Wi Wf Wg Wo (ix2 q (colI j)) = Wi (ix2 j k) := by
  unfold halfT
  rw [truncf_apply, transpose_ix2_apply, stacked_I]
  exact slice2_axis1_apply o Wi hs j q k hk

/-- Column 1024 + j of the transposed stack, at row q, is the forget gate's weight at row j and column o + q. -/
theorem halfT_F (o : Nat) (hs : S1024x2048.Slices ![0, o] S1024x1024) (Wi Wf Wg Wo : FVec Ideal S1024x2048 .f32) (q j : Fin 1024)
    (k : Fin 2048) (hk : k.val = o + q.val) :
    halfT o hs Wi Wf Wg Wo (ix2 q (colF j)) = Wf (ix2 j k) := by
  unfold halfT
  rw [truncf_apply, transpose_ix2_apply, stacked_F]
  exact slice2_axis1_apply o Wf hs j q k hk

/-- Column 2048 + j of the transposed stack, at row q, is the candidate gate's weight at row j and column o + q. -/
theorem halfT_G (o : Nat) (hs : S1024x2048.Slices ![0, o] S1024x1024) (Wi Wf Wg Wo : FVec Ideal S1024x2048 .f32) (q j : Fin 1024)
    (k : Fin 2048) (hk : k.val = o + q.val) :
    halfT o hs Wi Wf Wg Wo (ix2 q (colG j)) = Wg (ix2 j k) := by
  unfold halfT
  rw [truncf_apply, transpose_ix2_apply, stacked_G]
  exact slice2_axis1_apply o Wg hs j q k hk

/-- Column 3072 + j of the transposed stack, at row q, is the output gate's weight at row j and column o + q. -/
theorem halfT_O (o : Nat) (hs : S1024x2048.Slices ![0, o] S1024x1024) (Wi Wf Wg Wo : FVec Ideal S1024x2048 .f32) (q j : Fin 1024)
    (k : Fin 2048) (hk : k.val = o + q.val) :
    halfT o hs Wi Wf Wg Wo (ix2 q (colO j)) = Wo (ix2 j k) := by
  unfold halfT
  rw [truncf_apply, transpose_ix2_apply, stacked_O]
  exact slice2_axis1_apply o Wo hs j q k hk

/-! ## The stacked bias entry by entry -/

/-- Entry 0 + j of the stacked bias is entry j of the input gate's bias. -/
theorem biasCat_I (bi bf bg bo : FVec Ideal S1024 .f32) (j : Fin 1024) :
    biasCat bi bf bg bo (ix1 (colI j)) = bi (ix1 j) := by
  unfold biasCat
  exact concatenate_apply_piece 0 _ _ (ix1 (colI j)) 0 (by simp) S1024 _ rfl rfl 0 rfl (ix1 j) (fun b hb => match b, hb with
    | ⟨0, _⟩, hb => absurd rfl hb) (by show 0 + j.val = j.val; omega)

/-- Entry 1024 + j of the stacked bias is entry j of the forget gate's bias. -/
theorem biasCat_F (bi bf bg bo : FVec Ideal S1024 .f32) (j : Fin 1024) :
    biasCat bi bf bg bo (ix1 (colF j)) = bf (ix1 j) := by
  unfold biasCat
  exact concatenate_apply_piece 0 _ _ (ix1 (colF j)) 1 (by simp) S1024 _ rfl rfl 1024 rfl (ix1 j) (fun b hb => match b, hb with
    | ⟨0, _⟩, hb => absurd rfl hb) (by show 1024 + j.val = 1024 + j.val; omega)

/-- Entry 2048 + j of the stacked bias is entry j of the candidate gate's bias. -/
theorem biasCat_G (bi bf bg bo : FVec Ideal S1024 .f32) (j : Fin 1024) :
    biasCat bi bf bg bo (ix1 (colG j)) = bg (ix1 j) := by
  unfold biasCat
  exact concatenate_apply_piece 0 _ _ (ix1 (colG j)) 2 (by simp) S1024 _ rfl rfl 2048 rfl (ix1 j) (fun b hb => match b, hb with
    | ⟨0, _⟩, hb => absurd rfl hb) (by show 2048 + j.val = 2048 + j.val; omega)

/-- Entry 3072 + j of the stacked bias is entry j of the output gate's bias. -/
theorem biasCat_O (bi bf bg bo : FVec Ideal S1024 .f32) (j : Fin 1024) :
    biasCat bi bf bg bo (ix1 (colO j)) = bo (ix1 j) := by
  unfold biasCat
  exact concatenate_apply_piece 0 _ _ (ix1 (colO j)) 3 (by simp) S1024 _ rfl rfl 3072 rfl (ix1 j) (fun b hb => match b, hb with
    | ⟨0, _⟩, hb => absurd rfl hb) (by show 3072 + j.val = 3072 + j.val; omega)

/-! ## Each gate's columns -/

/-- The prepared arrays hold the input gate's weights and bias at the input gate's columns. -/
theorem gate_I (Wi Wf Wg Wo : FVec Ideal S1024x2048 .f32) (bi bf bg bo : FVec Ideal S1024 .f32) :
    GateAt (halfT 0 slices_S1024x2048_S1024x1024_0_0 Wi Wf Wg Wo) (halfT 1024 slices_S1024x2048_S1024x1024_0_1024 Wi Wf Wg Wo)
      (biasCat bi bf bg bo) colI Wi bi where
  first q j := halfT_I 0 _ Wi Wf Wg Wo q j (lo q) (Nat.zero_add _).symm
  second q j := halfT_I 1024 _ Wi Wf Wg Wo q j (hi q) rfl
  bias j := biasCat_I bi bf bg bo j

/-- The prepared arrays hold the forget gate's weights and bias at the forget gate's columns. -/
theorem gate_F (Wi Wf Wg Wo : FVec Ideal S1024x2048 .f32) (bi bf bg bo : FVec Ideal S1024 .f32) :
    GateAt (halfT 0 slices_S1024x2048_S1024x1024_0_0 Wi Wf Wg Wo) (halfT 1024 slices_S1024x2048_S1024x1024_0_1024 Wi Wf Wg Wo)
      (biasCat bi bf bg bo) colF Wf bf where
  first q j := halfT_F 0 _ Wi Wf Wg Wo q j (lo q) (Nat.zero_add _).symm
  second q j := halfT_F 1024 _ Wi Wf Wg Wo q j (hi q) rfl
  bias j := biasCat_F bi bf bg bo j

/-- The prepared arrays hold the candidate gate's weights and bias at the candidate gate's columns. -/
theorem gate_G (Wi Wf Wg Wo : FVec Ideal S1024x2048 .f32) (bi bf bg bo : FVec Ideal S1024 .f32) :
    GateAt (halfT 0 slices_S1024x2048_S1024x1024_0_0 Wi Wf Wg Wo) (halfT 1024 slices_S1024x2048_S1024x1024_0_1024 Wi Wf Wg Wo)
      (biasCat bi bf bg bo) colG Wg bg where
  first q j := halfT_G 0 _ Wi Wf Wg Wo q j (lo q) (Nat.zero_add _).symm
  second q j := halfT_G 1024 _ Wi Wf Wg Wo q j (hi q) rfl
  bias j := biasCat_G bi bf bg bo j

/-- The prepared arrays hold the output gate's weights and bias at the output gate's columns. -/
theorem gate_O (Wi Wf Wg Wo : FVec Ideal S1024x2048 .f32) (bi bf bg bo : FVec Ideal S1024 .f32) :
    GateAt (halfT 0 slices_S1024x2048_S1024x1024_0_0 Wi Wf Wg Wo) (halfT 1024 slices_S1024x2048_S1024x1024_0_1024 Wi Wf Wg Wo)
      (biasCat bi bf bg bo) colO Wo bo where
  first q j := halfT_O 0 _ Wi Wf Wg Wo q j (lo q) (Nat.zero_add _).symm
  second q j := halfT_O 1024 _ Wi Wf Wg Wo q j (hi q) rfl
  bias j := biasCat_O bi bf bg bo j

end Cert.Lstm.Host

end
-- ==== Proof.KernelValue.lean ====
/-
  What the idealized kernel's two result arrays hold after the run: the specification's new hidden and cell states.

  Grid point t is handed rows 128 t to 128 t + 127 of x, h and c and the whole prepared weight and bias arrays, so
  entry (p, j) of the block it writes back is the specification's value at batch row 128 t + p and unit j
  (`hidden_entry`, `cell_entry`, from the body's entries and the prepared arrays' contents). Point t writes its block
  back as rows 128 t to 128 t + 127 of the result (`flushed6_eq`, `flushed7_eq`), and the 128 points' blocks cover all
  16384 rows (`covered`: row i is in the block of point i / 128). Hence each result array is the specification's
  function of the arguments, whole (`final6`, `final7`), and the run is restated with those contents (`run`).
-/
import proofs.«170980_j3685081940484_1_alg».proof.Proof.LaunchIdeal
import proofs.«170980_j3685081940484_1_alg».proof.Proof.HostPrefix
import Idealize.ShloMosaic.Lib.Pipeline.Value

set_option maxRecDepth 16384

noncomputable section

namespace Cert.Lstm.Value

open Cert.KernelIdeal Cert.KernelIdeal.Gen Cert.KernelIdeal.Launched Idealize.ShloMosaic Idealize.ShloMosaic.TcCoe Idealize.ShloMosaic.ValueIdx
  Idealize.SL.Sem Cert.Lstm Cert.Lstm.Kern Cert.Lstm.Host
open Idealize.ShloMosaic.Pipeline (Dat)

variable (m : (ℓ : Loc nD τ sig) → Buf (Elt Ideal) ℓ) (ρ : Dev nD → PrngReg)

/-! ## The results the specification names -/

/-- The new hidden state of the arguments in the start memory. -/
def hOut (c : Dev nD) : Acts := hNext (m ((c : Thread nD τ).loc main_arg3)) (m ((c : Thread nD τ).loc main_arg5)) (m ((c : Thread nD τ).loc main_arg7)) (m ((c : Thread nD τ).loc main_arg9)) (m ((c : Thread nD τ).loc main_arg4)) (m ((c : Thread nD τ).loc main_arg6)) (m ((c : Thread nD τ).loc main_arg8)) (m ((c : Thread nD τ).loc main_arg10)) (m ((c : Thread nD τ).loc main_arg0)) (m ((c : Thread nD τ).loc main_arg1)) (m ((c : Thread nD τ).loc main_arg2))

/-- The new cell state of the arguments in the start memory. -/
def cOut (c : Dev nD) : Acts := cNext (m ((c : Thread nD τ).loc main_arg3)) (m ((c : Thread nD τ).loc main_arg5)) (m ((c : Thread nD τ).loc main_arg7)) (m ((c : Thread nD τ).loc main_arg4)) (m ((c : Thread nD τ).loc main_arg6)) (m ((c : Thread nD τ).loc main_arg8)) (m ((c : Thread nD τ).loc main_arg0)) (m ((c : Thread nD τ).loc main_arg1)) (m ((c : Thread nD τ).loc main_arg2))

/-! ## The grid and the index maps -/

/-- A grid point's number is below 128. -/
theorem t_lt (t : Fin cfg0.N) : t.val < 128 := lt_of_lt_of_eq t.isLt N_0

/-- Batch row of row p of point t's block. -/
abbrev rowOf (t : Fin cfg0.N) (p : Fin 128) : Fin 16384 := ⟨128 * t.val + p.val, by have := t_lt t; have := p.isLt; omega⟩

/-- The row windows (x, h, c and the two results) move one block of 128 rows per point and stay at column block 0; the
    prepared arrays' windows stay at block 0. Decided over the 128 points. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ win0_5.index t (0 : Fin 1) = 0
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-! ## The six input blocks at a point, at their literal types -/

abbrev xblk (c : Dev nD) (t : Fin cfg0.N) : FVec Ideal S128x1024 .f32 := iblk m c 0 t
abbrev hblk (c : Dev nD) (t : Fin cfg0.N) : FVec Ideal S128x1024 .f32 := iblk m c 1 t
abbrev cblk (c : Dev nD) (t : Fin cfg0.N) : FVec Ideal S128x1024 .f32 := iblk m c 2 t
abbrev wxblk (c : Dev nD) (t : Fin cfg0.N) : FVec Ideal S1024x4096 .bf16 := iblk m c 3 t
abbrev whblk (c : Dev nD) (t : Fin cfg0.N) : FVec Ideal S1024x4096 .bf16 := iblk m c 4 t
abbrev bblk (c : Dev nD) (t : Fin cfg0.N) : FVec Ideal S4096 .f32 := iblk m c 5 t

/-- Row p of point t's x block is batch row 128 t + p of x. -/
theorem xblk_at (c : Dev nD) (t : Fin cfg0.N) (p : Fin 128) (q : Fin 1024) :
    xblk m c t (ix2 p q) = m ((c : Thread nD τ).loc main_arg0) (ix2 (rowOf t p) q) := by
  show V m c main_arg0 (((cfg0.win 0).blk t).view.emb (ix2 p q)) = _
  rw [V_main_arg0]
  refine congrArg _ (funext fun a => Fin.ext ?_)
  obtain ⟨⟨e0, e1⟩, -⟩ := idx_facts t
  match a with
  | ⟨0, _⟩ => show win0_0.index t (0 : Fin 2) * 128 + 1 * p.val = 128 * t.val + p.val; omega
  | ⟨1, _⟩ => show win0_0.index t (1 : Fin 2) * 1024 + 1 * q.val = q.val; omega

/-- Row p of point t's h block is batch row 128 t + p of h. -/
theorem hblk_at (c : Dev nD) (t : Fin cfg0.N) (p : Fin 128) (q : Fin 1024) :
    hblk m c t (ix2 p q) = m ((c : Thread nD τ).loc main_arg1) (ix2 (rowOf t p) q) := by
  show V m c main_arg1 (((cfg0.win 1).blk t).view.emb (ix2 p q)) = _
  rw [V_main_arg1]
  refine congrArg _ (funext fun a => Fin.ext ?_)
  obtain ⟨-, ⟨e0, e1⟩, -⟩ := idx_facts t
  match a with
  | ⟨0, _⟩ => show win0_1.index t (0 : Fin 2) * 128 + 1 * p.val = 128 * t.val + p.val; omega
  | ⟨1, _⟩ => show win0_1.index t (1 : Fin 2) * 1024 + 1 * q.val = q.val; omega

/-- Row p of point t's c block is batch row 128 t + p of c. -/
theorem cblk_at (c : Dev nD) (t : Fin cfg0.N) (p : Fin 128) (q : Fin 1024) :
    cblk m c t (ix2 p q) = m ((c : Thread nD τ).loc main_arg2) (ix2 (rowOf t p) q) := by
  show V m c main_arg2 (((cfg0.win 2).blk t).view.emb (ix2 p q)) = _
  rw [V_main_arg2]
  refine congrArg _ (funext fun a => Fin.ext ?_)
  obtain ⟨-, -, ⟨e0, e1⟩, -⟩ := idx_facts t
  match a with
  | ⟨0, _⟩ => show win0_2.index t (0 : Fin 2) * 128 + 1 * p.val = 128 * t.val + p.val; omega
  | ⟨1, _⟩ => show win0_2.index t (1 : Fin 2) * 1024 + 1 * q.val = q.val; omega

/-- Every point's block of the first prepared array is the whole array: the first halves, stacked and transposed. -/
theorem wxblk_eq (c : Dev nD) (t : Fin cfg0.N) :
    wxblk m c t = halfT 0 slices_S1024x2048_S1024x1024_0_0 (m ((c : Thread nD τ).loc main_arg3)) (m ((c : Thread nD τ).loc main_arg5)) (m ((c : Thread nD τ).loc main_arg7)) (m ((c : Thread nD τ).loc main_arg9)) := by
  funext y
  show V m c main_v11 (((cfg0.win 3).blk t).view.emb y) = _
  rw [V_v11]
  refine congrArg _ (funext fun a => Fin.ext ?_)
  obtain ⟨-, -, -, ⟨e0, e1⟩, -⟩ := idx_facts t
  match a with
  | ⟨0, _⟩ => show win0_3.index t (0 : Fin 2) * 1024 + 1 * (y 0).val = (y 0).val; omega
  | ⟨1, _⟩ => show win0_3.index t (1 : Fin 2) * 4096 + 1 * (y 1).val = (y 1).val; omega

/-- Every point's block of the second prepared array is the whole array: the second halves, stacked and transposed. -/
theorem whblk_eq (c : Dev nD) (t : Fin cfg0.N) :
    whblk m c t = halfT 1024 slices_S1024x2048_S1024x1024_0_1024 (m ((c : Thread nD τ).loc main_arg3)) (m ((c : Thread nD τ).loc main_arg5)) (m ((c : Thread nD τ).loc main_arg7)) (m ((c : Thread nD τ).loc main_arg9)) := by
  funext y
  show V m c main_v13 (((cfg0.win 4).blk t).view.emb y) = _
  rw [V_v13]
  refine congrArg _ (funext fun a => Fin.ext ?_)
  obtain ⟨-, -, -, -, ⟨e0, e1⟩, -⟩ := idx_facts t
  match a with
  | ⟨0, _⟩ => show win0_4.index t (0 : Fin 2) * 1024 + 1 * (y 0).val = (y 0).val; omega
  | ⟨1, _⟩ => show win0_4.index t (1 : Fin 2) * 4096 + 1 * (y 1).val = (y 1).val; omega

/-- Every point's block of the stacked bias is the whole stacked bias. -/
theorem bblk_eq (c : Dev nD) (t : Fin cfg0.N) :
    bblk m c t = biasCat (m ((c : Thread nD τ).loc main_arg4)) (m ((c : Thread nD τ).loc main_arg6)) (m ((c : Thread nD τ).loc main_arg8)) (m ((c : Thread nD τ).loc main_arg10)) := by
  funext y
  show V m c main_v14 (((cfg0.win 5).blk t).view.emb y) = _
  rw [V_v14]
  refine congrArg _ (funext fun a => Fin.ext ?_)
  obtain ⟨-, -, -, -, -, e0, -⟩ := idx_facts t
  match a with
  | ⟨0, _⟩ => show win0_5.index t (0 : Fin 1) * 4096 + 1 * (y 0).val = (y 0).val; omega

/-! ## One entry of what a point writes back -/

/-- Entry (p, j) of the hidden-state block of point t is the specification's new hidden state at batch row 128 t + p. -/
theorem hidden_entry (c : Dev nD) (t : Fin cfg0.N) (p : Fin 128) (j : Fin 1024) :
    k0_pay3 (F := Ideal) (xblk m c t) (hblk m c t) (wxblk m c t) (whblk m c t) (bblk m c t) (cblk m c t) (ix2 p j)
      = hAt (m ((c : Thread nD τ).loc main_arg3)) (m ((c : Thread nD τ).loc main_arg5)) (m ((c : Thread nD τ).loc main_arg7)) (m ((c : Thread nD τ).loc main_arg9)) (m ((c : Thread nD τ).loc main_arg4)) (m ((c : Thread nD τ).loc main_arg6)) (m ((c : Thread nD τ).loc main_arg8)) (m ((c : Thread nD τ).loc main_arg10)) (m ((c : Thread nD τ).loc main_arg0)) (m ((c : Thread nD τ).loc main_arg1)) (m ((c : Thread nD τ).loc main_arg2)) (rowOf t p) j := by
  refine hidden_block (xblk m c t) (hblk m c t) (cblk m c t) (wxblk m c t) (whblk m c t) (bblk m c t) _ _ _ _ _ _ _ _ _ _ _ p (rowOf t p) j
    (fun q => xblk_at m c t p q) (fun q => hblk_at m c t p q) (cblk_at m c t p j) ?_ ?_ ?_ ?_
  all_goals rw [wxblk_eq, whblk_eq, bblk_eq]
  · exact gate_I _ _ _ _ _ _ _ _
  · exact gate_F _ _ _ _ _ _ _ _
  · exact gate_G _ _ _ _ _ _ _ _
  · exact gate_O _ _ _ _ _ _ _ _

/-- Entry (p, j) of the cell-state block of point t is the specification's new cell state at batch row 128 t + p. -/
theorem cell_entry (c : Dev nD) (t : Fin cfg0.N) (p : Fin 128) (j : Fin 1024) :
    k0_pay2 (F := Ideal) (xblk m c t) (hblk m c t) (wxblk m c t) (whblk m c t) (bblk m c t) (cblk m c t) (ix2 p j)
      = cAt (m ((c : Thread nD τ).loc main_arg3)) (m ((c : Thread nD τ).loc main_arg5)) (m ((c : Thread nD τ).loc main_arg7)) (m ((c : Thread nD τ).loc main_arg4)) (m ((c : Thread nD τ).loc main_arg6)) (m ((c : Thread nD τ).loc main_arg8)) (m ((c : Thread nD τ).loc main_arg0)) (m ((c : Thread nD τ).loc main_arg1)) (m ((c : Thread nD τ).loc main_arg2)) (rowOf t p) j := by
  refine cell_block (xblk m c t) (hblk m c t) (cblk m c t) (wxblk m c t) (whblk m c t) (bblk m c t) _ _ _ _ _ _ _ _ _ p (rowOf t p) j
    (fun q => xblk_at m c t p q) (fun q => hblk_at m c t p q) (cblk_at m c t p j) ?_ ?_ ?_
  all_goals rw [wxblk_eq, whblk_eq, bblk_eq]
  · exact gate_I _ _ _ _ _ _ _ _
  · exact gate_F _ _ _ _ _ _ _ _
  · exact gate_G _ _ _ _ _ _ _ _

/-! ## What each point writes back, and the cover -/

theorem hz2 : (![0, 0] : Fin 2 → Nat) = fun _ => 0 := funext fun a => by fin_cases a <;> rfl
theorem hz1 : (![0] : Fin 1 → Nat) = fun _ => 0 := funext fun a => by fin_cases a; rfl

/-- Point t writes back, as the hidden-state result's rows 128 t to 128 t + 127, those rows of `hOut`. -/
theorem flushed6_eq (c : Dev nD) (t : Fin cfg0.N) :
    (dats m 0 c).flushed 6 t = ((cfg0.win 6).blk t).view.read (Elt Ideal) (hOut m c) := by
  show (cfg0.win 6).cut (grid0.coords t) ((dats m 0 c).after 6 t) = _
  rw [after0_6]
  unfold out0_6
  rw [View.canon_unit_zero hz2]
  simp only [View.ld_unit_zero (S := S128x1024) hz2, View.ld_unit_zero (S := S1024x4096) hz2, View.ld_unit_zero (S := S4096) hz1]
  funext y
  show k0_pay3 (F := Ideal) (xblk m c t) (hblk m c t) (wxblk m c t) (whblk m c t) (bblk m c t) (cblk m c t) y = hOut m c (((cfg0.win 6).blk t).view.emb y)
  have hy : y = ix2 (y 0) (y 1) := eq_ix2 (n0 := 128) (n1 := 1024) y
  refine (congrArg (k0_pay3 (F := Ideal) (xblk m c t) (hblk m c t) (wxblk m c t) (whblk m c t) (bblk m c t) (cblk m c t)) hy).trans ((hidden_entry m c t (y 0) (y 1)).trans ?_)
  obtain ⟨-, -, -, -, -, -, ⟨e0, e1⟩, -⟩ := idx_facts t
  refine congrArg₂ (hAt (m ((c : Thread nD τ).loc main_arg3)) (m ((c : Thread nD τ).loc main_arg5)) (m ((c : Thread nD τ).loc main_arg7)) (m ((c : Thread nD τ).loc main_arg9)) (m ((c : Thread nD τ).loc main_arg4)) (m ((c : Thread nD τ).loc main_arg6)) (m ((c : Thread nD τ).loc main_arg8)) (m ((c : Thread nD τ).loc main_arg10)) (m ((c : Thread nD τ).loc main_arg0)) (m ((c : Thread nD τ).loc main_arg1)) (m ((c : Thread nD τ).loc main_arg2))) (Fin.ext ?_) (Fin.ext ?_)
  · show 128 * t.val + (y 0).val = win0_6.index t (0 : Fin 2) * 128 + 1 * (y 0).val; omega
  · show (y 1).val = win0_6.index t (1 : Fin 2) * 1024 + 1 * (y 1).val; omega

/-- Point t writes back, as the cell-state result's rows 128 t to 128 t + 127, those rows of `cOut`. -/
theorem flushed7_eq (c : Dev nD) (t : Fin cfg0.N) :
    (dats m 0 c).flushed 7 t = ((cfg0.win 7).blk t).view.read (Elt Ideal) (cOut m c) := by
  show (cfg0.win 7).cut (grid0.coords t) ((dats m 0 c).after 7 t) = _
  rw [after0_7]
  unfold out0_7
  rw [View.canon_unit_zero hz2]
  simp only [View.ld_unit_zero (S := S128x1024) hz2, View.ld_unit_zero (S := S1024x4096) hz2, View.ld_unit_zero (S := S4096) hz1]
  funext y
  show k0_pay2 (F := Ideal) (xblk m c t) (hblk m c t) (wxblk m c t) (whblk m c t) (bblk m c t) (cblk m c t) y = cOut m c (((cfg0.win 7).blk t).view.emb y)
  have hy : y = ix2 (y 0) (y 1) := eq_ix2 (n0 := 128) (n1 := 1024) y
  refine (congrArg (k0_pay2 (F := Ideal) (xblk m c t) (hblk m c t) (wxblk m c t) (whblk m c t) (bblk m c t) (cblk m c t)) hy).trans ((cell_entry m c t (y 0) (y 1)).trans ?_)
  obtain ⟨-, -, -, -, -, -, -, ⟨e0, e1⟩⟩ := idx_facts t
  refine congrArg₂ (cAt (m ((c : Thread nD τ).loc main_arg3)) (m ((c : Thread nD τ).loc main_arg5)) (m ((c : Thread nD τ).loc main_arg7)) (m ((c : Thread nD τ).loc main_arg4)) (m ((c : Thread nD τ).loc main_arg6)) (m ((c : Thread nD τ).loc main_arg8)) (m ((c : Thread nD τ).loc main_arg0)) (m ((c : Thread nD τ).loc main_arg1)) (m ((c : Thread nD τ).loc main_arg2))) (Fin.ext ?_) (Fin.ext ?_)
  · show 128 * t.val + (y 0).val = win0_7.index t (0 : Fin 2) * 128 + 1 * (y 0).val; omega
  · show (y 1).val = win0_7.index t (1 : Fin 2) * 1024 + 1 * (y 1).val; omega

/-- An index of a result array is in point t's block iff each coordinate is in the block's range on its axis. -/
theorem mem_blk6 (t : Fin cfg0.N) (i : S16384x1024.Idx) :
    i ∈ ((cfg0.win 6).blk t).view.set ↔ ∀ a : Fin 2, win0_6.index t a * S128x1024.size a ≤ (i a).val ∧ (i a).val < win0_6.index t a * S128x1024.size a + S128x1024.size a := by
  show i ∈ ((View.whole main_v15_0).slice (win0_6.rect t)).set ↔ _
  rw [View.set_slice_whole, Rect.mem_set_unit]
  exact Iff.rfl

theorem mem_blk7 (t : Fin cfg0.N) (i : S16384x1024.Idx) :
    i ∈ ((cfg0.win 7).blk t).view.set ↔ ∀ a : Fin 2, win0_7.index t a * S128x1024.size a ≤ (i a).val ∧ (i a).val < win0_7.index t a * S128x1024.size a + S128x1024.size a := by
  show i ∈ ((View.whole main_v15_1).slice (win0_7.rect t)).set ↔ _
  rw [View.set_slice_whole, Rect.mem_set_unit]
  exact Iff.rfl

/-- The point whose block holds row i. -/
abbrev pointOf (i : S16384x1024.Idx) : Fin cfg0.N := ⟨(i 0).val / 128, by rw [show cfg0.N = 128 from N_0]; have : (i 0).val < 16384 := (i 0).isLt; omega⟩

/-- Every index of the hidden-state result is in the block of the point its row names. -/
theorem covered6 (i : S16384x1024.Idx) : ∃ t : Fin cfg0.N, (cfg0.win 6).flush t = true ∧ i ∈ ((cfg0.win 6).blk t).view.set := by
  refine ⟨pointOf i, flush0_6 _, ?_⟩
  rw [mem_blk6]
  obtain ⟨-, -, -, -, -, -, ⟨e0, e1⟩, -⟩ := idx_facts (pointOf i)
  have h0 : (i 0).val < 16384 := (i 0).isLt
  have h1 : (i 1).val < 1024 := (i 1).isLt
  intro a
  match a with
  | ⟨0, _⟩ => show win0_6.index (pointOf i) (0 : Fin 2) * 128 ≤ (i 0).val ∧ (i 0).val < win0_6.index (pointOf i) (0 : Fin 2) * 128 + 128; rw [e0]; show (i 0).val / 128 * 128 ≤ (i 0).val ∧ (i 0).val < (i 0).val / 128 * 128 + 128; omega
  | ⟨1, _⟩ => show win0_6.index (pointOf i) (1 : Fin 2) * 1024 ≤ (i 1).val ∧ (i 1).val < win0_6.index (pointOf i) (1 : Fin 2) * 1024 + 1024; omega

/-- Every index of the cell-state result is in the block of the point its row names. -/
theorem covered7 (i : S16384x1024.Idx) : ∃ t : Fin cfg0.N, (cfg0.win 7).flush t = true ∧ i ∈ ((cfg0.win 7).blk t).view.set := by
  refine ⟨pointOf i, flush0_7 _, ?_⟩
  rw [mem_blk7]
  obtain ⟨-, -, -, -, -, -, -, ⟨e0, e1⟩⟩ := idx_facts (pointOf i)
  have h0 : (i 0).val < 16384 := (i 0).isLt
  have h1 : (i 1).val < 1024 := (i 1).isLt
  intro a
  match a with
  | ⟨0, _⟩ => show win0_7.index (pointOf i) (0 : Fin 2) * 128 ≤ (i 0).val ∧ (i 0).val < win0_7.index (pointOf i) (0 : Fin 2) * 128 + 128; rw [e0]; show (i 0).val / 128 * 128 ≤ (i 0).val ∧ (i 0).val < (i 0).val / 128 * 128 + 128; omega
  | ⟨1, _⟩ => show win0_7.index (pointOf i) (1 : Fin 2) * 1024 ≤ (i 1).val ∧ (i 1).val < win0_7.index (pointOf i) (1 : Fin 2) * 1024 + 1024; omega

/-! ## The result arrays, whole -/

/-- After the run the hidden-state result is `hOut`. -/
theorem final6 (c : Dev nD) : (dats m 0 c).arrAt 6 cfg0.N = hOut m c :=
  (dats m 0 c).arrAt_eq_of_cover 6 (hOut m c) (fun t _ => flushed6_eq m c t) covered6

/-- After the run the cell-state result is `cOut`. -/
theorem final7 (c : Dev nD) : (dats m 0 c).arrAt 7 cfg0.N = cOut m c :=
  (dats m 0 c).arrAt_eq_of_cover 7 (cOut m c) (fun t _ => flushed7_eq m c t) covered7

/-- The idealized kernel's run: it ends, its two results are the specification's new states of its arguments, and its
    arguments are unchanged. -/
theorem run : θ_run defs (onTc (τ := τ) (main (F := Ideal))) ⟨m, fun _ => 0, ρ⟩ fun r => ∀ c : Dev nD,
      r.2.mem ((c.tc : Thread nD τ).loc main_v15_0) = hOut m c
      ∧ r.2.mem ((c.tc : Thread nD τ).loc main_v15_1) = cOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨((h c).1 6).trans (final6 m c), ((h c).1 7).trans (final7 m c),
      args_kept m (dats m) (A_eq m) r h c⟩)
    (run_main m ρ)

end Cert.Lstm.Value

end
-- ==== Proof.RefSide.lean ====
/-
  The reference side of the value bridge for one LSTM cell step.

  The reference program joins x and h into one row of length 2048, stacks the four gates' weight matrices into one
  matrix of 4096 rows and the four biases into one vector of 4096 entries, takes one matrix product and adds the bias,
  and cuts the result into four bands of 1024 columns: the pre-activations of the input, forget, candidate and output
  gates. This module reads that program index by index. Column 1024 * g + j of the product, g = 0, 1, 2, 3, meets row j
  of the g-th gate's matrix and entry j of the g-th gate's bias; a sum over the 2048 joined columns is the sum over the
  first 1024, which meet x, plus the sum over the last 1024, which meet h. So each band at (r, j) is the gate's
  pre-activation `pre W b x h r j`, and the remaining operations, one over one plus the exponential of the negation,
  the hyperbolic tangent, products and a sum, spell the cell's new states `cNext` and `hNext`.
-/
import proofs.«170980_j3685081940484_1_alg».proof.Proof.Gen.ReferenceIdeal.Read
import proofs.«170980_j3685081940484_1_alg».proof.Proof.Spec
import Idealize.ShloMosaic.Lib.Pipeline.Value
import Idealize.ShloMosaic.Lib.ValueIdx
import Idealize.ShloMosaic.PureOps.Ideal.Laws

noncomputable section

open scoped BigOperators

namespace Cert.Lstm.Ref

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Lstm

/-! ## The joined row (x r, h r) -/

/-- A column of the joined row below 1024 reads x. -/
theorem xh_left (x h : Acts) (i : S16384x2048.Idx) (r : Fin 16384) (q : Fin 1024)
    (h0 : (i 0).val = r.val) (h1 : (i 1).val = q.val) :
    val_main_v0 (F := Ideal) x h i = x (ix2 r q) := by
  unfold val_main_v0
  exact concatenate_pair_apply_left 1 x h _ i rfl (ix2 r q) (fun b => match b with
    | ⟨0, _⟩ => h0.symm
    | ⟨1, _⟩ => h1.symm)

/-- Column 1024 + q of the joined row reads h at q. -/
theorem xh_right (x h : Acts) (i : S16384x2048.Idx) (r : Fin 16384) (q : Fin 1024)
    (h0 : (i 0).val = r.val) (h1 : (i 1).val = 1024 + q.val) :
    val_main_v0 (F := Ideal) x h i = h (ix2 r q) := by
  unfold val_main_v0
  exact concatenate_pair_apply_right 1 x h _ i rfl rfl (ix2 r q) (fun b hb => match b, hb with
    | ⟨0, _⟩, _ => h0.symm
    | ⟨1, _⟩, hb => absurd rfl hb) (by show q.val + 1024 = (i 1).val; omega)

/-! ## The stacked weights and biases -/

/-- Row j of the stacked matrix is row j of the input gate's matrix. -/
theorem W_i (Wi Wf Wg Wo : Wts) (i : S4096x2048.Idx) (j : Fin 1024) (k : Fin 2048)
    (h0 : (i 0).val = j.val) (h1 : (i 1).val = k.val) :
    val_main_v1 (F := Ideal) Wi Wf Wg Wo i = Wi (ix2 j k) := by
  unfold val_main_v1
  exact concatenate_apply_piece 0 _ _ i 0 (by simp) S1024x2048 Wi rfl rfl 0 rfl (ix2 j k) (fun b hb => match b, hb with
    | ⟨0, _⟩, hb => absurd rfl hb
    | ⟨1, _⟩, _ => h1.symm) (by show 0 + j.val = (i 0).val; omega)

/-- Row 1024 + j of the stacked matrix is row j of the forget gate's matrix. -/
theorem W_f (Wi Wf Wg Wo : Wts) (i : S4096x2048.Idx) (j : Fin 1024) (k : Fin 2048)
    (h0 : (i 0).val = 1024 + j.val) (h1 : (i 1).val = k.val) :
    val_main_v1 (F := Ideal) Wi Wf Wg Wo i = Wf (ix2 j k) := by
  unfold val_main_v1
  exact concatenate_apply_piece 0 _ _ i 1 (by simp) S1024x2048 Wf rfl rfl 1024 rfl (ix2 j k) (fun b hb => match b, hb with
    | ⟨0, _⟩, hb => absurd rfl hb
    | ⟨1, _⟩, _ => h1.symm) (by show 1024 + j.val = (i 0).val; omega)

/-- Row 2048 + j of the stacked matrix is row j of the candidate gate's matrix. -/
theorem W_g (Wi Wf Wg Wo : Wts) (i : S4096x2048.Idx) (j : Fin 1024) (k : Fin 2048)
    (h0 : (i 0).val = 2048 + j.val) (h1 : (i 1).val = k.val) :
    val_main_v1 (F := Ideal) Wi Wf Wg Wo i = Wg (ix2 j k) := by
  unfold val_main_v1
  exact concatenate_apply_piece 0 _ _ i 2 (by simp) S1024x2048 Wg rfl rfl 2048 rfl (ix2 j k) (fun b hb => match b, hb with
    | ⟨0, _⟩, hb => absurd rfl hb
    | ⟨1, _⟩, _ => h1.symm) (by show 2048 + j.val = (i 0).val; omega)

/-- Row 3072 + j of the stacked matrix is row j of the output gate's matrix. -/
theorem W_o (Wi Wf Wg Wo : Wts) (i : S4096x2048.Idx) (j : Fin 1024) (k : Fin 2048)
    (h0 : (i 0).val = 3072 + j.val) (h1 : (i 1).val = k.val) :
    val_main_v1 (F := Ideal) Wi Wf Wg Wo i = Wo (ix2 j k) := by
  unfold val_main_v1
  exact concatenate_apply_piece 0 _ _ i 3 (by simp) S1024x2048 Wo rfl rfl 3072 rfl (ix2 j k) (fun b hb => match b, hb with
    | ⟨0, _⟩, hb => absurd rfl hb
    | ⟨1, _⟩, _ => h1.symm) (by show 3072 + j.val = (i 0).val; omega)

/-- Entry j of the stacked bias is entry j of the input gate's bias. -/
theorem b_i (bi bf bg bo : Bias) (i : S4096.Idx) (j : Fin 1024)
    (h0 : (i 0).val = j.val) :
    val_main_v2 (F := Ideal) bi bf bg bo i = bi (ix1 j) := by
  unfold val_main_v2
  exact concatenate_apply_piece 0 _ _ i 0 (by simp) S1024 bi rfl rfl 0 rfl (ix1 j) (fun b hb => match b, hb with
    | ⟨0, _⟩, hb => absurd rfl hb) (by show 0 + j.val = (i 0).val; omega)

/-- Entry 1024 + j of the stacked bias is entry j of the forget gate's bias. -/
theorem b_f (bi bf bg bo : Bias) (i : S4096.Idx) (j : Fin 1024)
    (h0 : (i 0).val = 1024 + j.val) :
    val_main_v2 (F := Ideal) bi bf bg bo i = bf (ix1 j) := by
  unfold val_main_v2
  exact concatenate_apply_piece 0 _ _ i 1 (by simp) S1024 bf rfl rfl 1024 rfl (ix1 j) (fun b hb => match b, hb with
    | ⟨0, _⟩, hb => absurd rfl hb) (by show 1024 + j.val = (i 0).val; omega)

/-- Entry 2048 + j of the stacked bias is entry j of the candidate gate's bias. -/
theorem b_g (bi bf bg bo : Bias) (i : S4096.Idx) (j : Fin 1024)
    (h0 : (i 0).val = 2048 + j.val) :
    val_main_v2 (F := Ideal) bi bf bg bo i = bg (ix1 j) := by
  unfold val_main_v2
  exact concatenate_apply_piece 0 _ _ i 2 (by simp) S1024 bg rfl rfl 2048 rfl (ix1 j) (fun b hb => match b, hb with
    | ⟨0, _⟩, hb => absurd rfl hb) (by show 2048 + j.val = (i 0).val; omega)

/-- Entry 3072 + j of the stacked bias is entry j of the output gate's bias. -/
theorem b_o (bi bf bg bo : Bias) (i : S4096.Idx) (j : Fin 1024)
    (h0 : (i 0).val = 3072 + j.val) :
    val_main_v2 (F := Ideal) bi bf bg bo i = bo (ix1 j) := by
  unfold val_main_v2
  exact concatenate_apply_piece 0 _ _ i 3 (by simp) S1024 bo rfl rfl 3072 rfl (ix1 j) (fun b hb => match b, hb with
    | ⟨0, _⟩, hb => absurd rfl hb) (by show 3072 + j.val = (i 0).val; omega)

/-! ## The product plus the bias at one column -/

/-- The product plus the bias at an index whose row is r and whose column meets row j of a gate's matrix W and entry j
    of its bias b: the 2048 joined columns split into the 1024 that meet x and the 1024 that meet h. -/
theorem v7_at (x h : Acts) (Wi : Wts) (bi : Bias) (Wf : Wts) (bf : Bias) (Wg : Wts) (bg : Bias) (Wo : Wts) (bo : Bias) (i : S16384x4096.Idx) (r : Fin 16384) (j : Fin 1024) (W : Wts) (b : Bias)
    (h0 : (i 0).val = r.val)
    (hW : ∀ k : Fin 2048, val_main_v1 (F := Ideal) Wi Wf Wg Wo (idx_main_v3 (ridx_main_v4 i k)) = W (ix2 j k))
    (hb : val_main_v2 (F := Ideal) bi bf bg bo (idx_main_v5 (idx_main_v6 i)) = b (ix1 j)) :
    val_main_v7 (F := Ideal) x h Wi bi Wf bf Wg bg Wo bo i = pre W b x h r j := by
  rw [val_main_v7_apply, val_main_v4_apply, val_main_v6_apply, val_main_v5_apply, hb, Cert.Lstm.sum_halves]
  unfold pre
  rw [Ideal.addf_def]
  congr 1
  congr 1
  · refine Finset.sum_congr rfl fun q _ => ?_
    rw [val_main_v3_apply, hW, xh_left x h _ r q h0 rfl]
  · refine Finset.sum_congr rfl fun q _ => ?_
    rw [val_main_v3_apply, hW, xh_right x h _ r q h0 rfl]

/-! ## The four bands are the four gates' pre-activations -/

/-- The first band, columns 0 to 1023, is the input gate's pre-activation. -/
theorem pre_i (x h : Acts) (Wi : Wts) (bi : Bias) (Wf : Wts) (bf : Bias) (Wg : Wts) (bg : Bias) (Wo : Wts) (bo : Bias) (r : Fin 16384) (j : Fin 1024) :
    val_main_v8 (F := Ideal) x h Wi bi Wf bf Wg bg Wo bo (ix2 r j) = pre Wi bi x h r j := by
  rw [val_main_v8_apply]
  exact v7_at x h Wi bi Wf bf Wg bg Wo bo (idx_main_v8 (ix2 r j)) r j Wi bi rfl
    (fun k => W_i Wi Wf Wg Wo _ j k rfl rfl) (b_i bi bf bg bo _ j rfl)

/-- The second band, columns 1024 to 2047, is the forget gate's pre-activation. -/
theorem pre_f (x h : Acts) (Wi : Wts) (bi : Bias) (Wf : Wts) (bf : Bias) (Wg : Wts) (bg : Bias) (Wo : Wts) (bo : Bias) (r : Fin 16384) (j : Fin 1024) :
    val_main_v9 (F := Ideal) x h Wi bi Wf bf Wg bg Wo bo (ix2 r j) = pre Wf bf x h r j := by
  rw [val_main_v9_apply]
  exact v7_at x h Wi bi Wf bf Wg bg Wo bo (idx_main_v9 (ix2 r j)) r j Wf bf rfl
    (fun k => W_f Wi Wf Wg Wo _ j k rfl rfl) (b_f bi bf bg bo _ j rfl)

/-- The third band, columns 2048 to 3071, is the candidate gate's pre-activation. -/
theorem pre_g (x h : Acts) (Wi : Wts) (bi : Bias) (Wf : Wts) (bf : Bias) (Wg : Wts) (bg : Bias) (Wo : Wts) (bo : Bias) (r : Fin 16384) (j : Fin 1024) :
    val_main_v10 (F := Ideal) x h Wi bi Wf bf Wg bg Wo bo (ix2 r j) = pre Wg bg x h r j := by
  rw [val_main_v10_apply]
  exact v7_at x h Wi bi Wf bf Wg bg Wo bo (idx_main_v10 (ix2 r j)) r j Wg bg rfl
    (fun k => W_g Wi Wf Wg Wo _ j k rfl rfl) (b_g bi bf bg bo _ j rfl)

/-- The fourth band, columns 3072 to 4095, is the output gate's pre-activation. -/
theorem pre_o (x h : Acts) (Wi : Wts) (bi : Bias) (Wf : Wts) (bf : Bias) (Wg : Wts) (bg : Bias) (Wo : Wts) (bo : Bias) (r : Fin 16384) (j : Fin 1024) :
    val_main_v11 (F := Ideal) x h Wi bi Wf bf Wg bg Wo bo (ix2 r j) = pre Wo bo x h r j := by
  rw [val_main_v11_apply]
  exact v7_at x h Wi bi Wf bf Wg bg Wo bo (idx_main_v11 (ix2 r j)) r j Wo bo rfl
    (fun k => W_o Wi Wf Wg Wo _ j k rfl rfl) (b_o bi bf bg bo _ j rfl)

/-! ## The gates -/

/-- The input gate: one over one plus the exponential of the negated pre-activation. -/
theorem sig_i (x h : Acts) (Wi : Wts) (bi : Bias) (Wf : Wts) (bf : Bias) (Wg : Wts) (bg : Bias) (Wo : Wts) (bo : Bias) (r : Fin 16384) (j : Fin 1024) :
    val_main_v17 (F := Ideal) x h Wi bi Wf bf Wg bg Wo bo (ix2 r j) = Ideal.logistic (pre Wi bi x h r j) := by
  rw [val_main_v17_apply, val_main_v16_apply, val_main_cst_0_apply, val_main_v15_apply, val_main_v14_apply,
    val_main_cst_apply, val_main_v13_apply, val_main_v12_apply, pre_i]
  simp only [Ideal.hostDivf_def, Ideal.ofBits_def, Cert.Lstm.one_f32, Ideal.addf_def, Ideal.hostUnary_exp_def,
    Ideal.hostNegf_def, Ideal.negf_def, Cert.Lstm.logistic_spelt]

/-- The forget gate. -/
theorem sig_f (x h : Acts) (Wi : Wts) (bi : Bias) (Wf : Wts) (bf : Bias) (Wg : Wts) (bg : Bias) (Wo : Wts) (bo : Bias) (r : Fin 16384) (j : Fin 1024) :
    val_main_v23 (F := Ideal) x h Wi bi Wf bf Wg bg Wo bo (ix2 r j) = Ideal.logistic (pre Wf bf x h r j) := by
  rw [val_main_v23_apply, val_main_v22_apply, val_main_cst_2_apply, val_main_v21_apply, val_main_v20_apply,
    val_main_cst_1_apply, val_main_v19_apply, val_main_v18_apply, pre_f]
  simp only [Ideal.hostDivf_def, Ideal.ofBits_def, Cert.Lstm.one_f32, Ideal.addf_def, Ideal.hostUnary_exp_def,
    Ideal.hostNegf_def, Ideal.negf_def, Cert.Lstm.logistic_spelt]

/-- The output gate. -/
theorem sig_o (x h : Acts) (Wi : Wts) (bi : Bias) (Wf : Wts) (bf : Bias) (Wg : Wts) (bg : Bias) (Wo : Wts) (bo : Bias) (r : Fin 16384) (j : Fin 1024) :
    val_main_v30 (F := Ideal) x h Wi bi Wf bf Wg bg Wo bo (ix2 r j) = Ideal.logistic (pre Wo bo x h r j) := by
  rw [val_main_v30_apply, val_main_v29_apply, val_main_cst_4_apply, val_main_v28_apply, val_main_v27_apply,
    val_main_cst_3_apply, val_main_v26_apply, val_main_v25_apply, pre_o]
  simp only [Ideal.hostDivf_def, Ideal.ofBits_def, Cert.Lstm.one_f32, Ideal.addf_def, Ideal.hostUnary_exp_def,
    Ideal.hostNegf_def, Ideal.negf_def, Cert.Lstm.logistic_spelt]

/-- The candidate: the hyperbolic tangent of its pre-activation. -/
theorem tanh_g (x h : Acts) (Wi : Wts) (bi : Bias) (Wf : Wts) (bf : Bias) (Wg : Wts) (bg : Bias) (Wo : Wts) (bo : Bias) (r : Fin 16384) (j : Fin 1024) :
    val_main_v24 (F := Ideal) x h Wi bi Wf bf Wg bg Wo bo (ix2 r j) = Ideal.tanh (pre Wg bg x h r j) := by
  rw [val_main_v24_apply, pre_g, Ideal.hostUnary_tanh_def]

/-! ## The new states -/

/-- The new cell state at (r, j). -/
theorem c_at (x h c : Acts) (Wi : Wts) (bi : Bias) (Wf : Wts) (bf : Bias) (Wg : Wts) (bg : Bias) (Wo : Wts) (bo : Bias)
    (r : Fin 16384) (j : Fin 1024) :
    val_main_v33 (F := Ideal) x h c Wi bi Wf bf Wg bg Wo bo (ix2 r j) = cAt Wi Wf Wg bi bf bg x h c r j := by
  rw [val_main_v33_apply, val_main_v31_apply, val_main_v32_apply, sig_f, sig_i, tanh_g]
  rfl

/-- The new hidden state at (r, j). -/
theorem h_at (x h c : Acts) (Wi : Wts) (bi : Bias) (Wf : Wts) (bf : Bias) (Wg : Wts) (bg : Bias) (Wo : Wts) (bo : Bias)
    (r : Fin 16384) (j : Fin 1024) :
    val_main_v35 (F := Ideal) x h c Wi bi Wf bf Wg bg Wo bo (ix2 r j) = hAt Wi Wf Wg Wo bi bf bg bo x h c r j := by
  rw [val_main_v35_apply, val_main_v34_apply, sig_o, c_at, Ideal.hostUnary_tanh_def]
  rfl

/-- The reference's new cell state is `cNext`. -/
theorem ref_c (x h c : Cert.Lstm.Acts) (Wi : Cert.Lstm.Wts) (bi : Cert.Lstm.Bias) (Wf : Cert.Lstm.Wts) (bf : Cert.Lstm.Bias) (Wg : Cert.Lstm.Wts) (bg : Cert.Lstm.Bias) (Wo : Cert.Lstm.Wts) (bo : Cert.Lstm.Bias) :
    Cert.ReferenceIdeal.Read.val_main_v33 (F := Ideal) x h c Wi bi Wf bf Wg bg Wo bo = Cert.Lstm.cNext Wi Wf Wg bi bf bg x h c := by
  funext i
  obtain ⟨r, j, rfl⟩ : ∃ (r : Fin 16384) (j : Fin 1024), i = ix2 r j := ⟨i 0, i 1, eq_ix2 i⟩
  rw [c_at, Cert.Lstm.cNext_apply]

/-- The reference's new hidden state is `hNext`. -/
theorem ref_h (x h c : Cert.Lstm.Acts) (Wi : Cert.Lstm.Wts) (bi : Cert.Lstm.Bias) (Wf : Cert.Lstm.Wts) (bf : Cert.Lstm.Bias) (Wg : Cert.Lstm.Wts) (bg : Cert.Lstm.Bias) (Wo : Cert.Lstm.Wts) (bo : Cert.Lstm.Bias) :
    Cert.ReferenceIdeal.Read.val_main_v35 (F := Ideal) x h c Wi bi Wf bf Wg bg Wo bo = Cert.Lstm.hNext Wi Wf Wg Wo bi bf bg bo x h c := by
  funext i
  obtain ⟨r, j, rfl⟩ : ∃ (r : Fin 16384) (j : Fin 1024), i = ix2 r j := ⟨i 0, i 1, eq_ix2 i⟩
  rw [h_at, Cert.Lstm.hNext_apply]

end Cert.Lstm.Ref

end
-- ==== Proof.lean ====
/-
  One step of an LSTM cell: the kernel against its reference, over the extended reals.

  Both programs compute, for every batch row r and unit j, the four gates' pre-activations
  (x r, h r) . W_gate(j, .) + b_gate(j), then c' = sigma(f) c + sigma(i) tanh(g) and h' = sigma(o) tanh(c').
  The reference joins x and h into rows of length 2048 and takes one product with the four stacked weight matrices; the
  kernel keeps x and h apart, takes two products with the two halves of the stacked weights and adds them. The two agree
  because a sum over 2048 columns is the sum over the first 1024 plus the sum over the last 1024: a regrouping of a sum
  in a commutative monoid, valid on the extended reals whatever the summands, so the precondition that the inputs are
  finite is never used. The kernel's logistic operation and the reference's 1 / (1 + exp(-t)) are one function at the
  ideal values by definition, and the kernel's narrowing of the matrix factors is the identity there.

  The parts: the specification (Proof/Spec.lean); the reference's two results are the specification's
  (Proof/RefSide.lean, over the reference's run read operation by operation); the kernel program runs to its end,
  without a fault, its arguments unchanged (Proof/LaunchIdeal.lean at the ideal values, Proof/LaunchBits.lean the same text
  for the program as printed at machine words); what the host prepares for the kernel (Proof/HostPrefix.lean); what the
  body computes entry by entry (Proof/Payload.lean, with Proof/LibDotPlain.lean for a matrix product at an entry); and the
  kernel's two result arrays are the specification's (Proof/KernelValue.lean). No operation of the kernel was rewritten
  when it was idealized, so that conjunct asks nothing.
-/
import proofs.«170980_j3685081940484_1_alg».proof.Defs
import proofs.«170980_j3685081940484_1_alg».proof.Proof.Gen.Kernel
import proofs.«170980_j3685081940484_1_alg».proof.Proof.Gen.KernelIdeal
import proofs.«170980_j3685081940484_1_alg».proof.Proof.Gen.ReferenceIdeal
import proofs.«170980_j3685081940484_1_alg».proof.Proof.Gen.Pre_finite_inputs
import proofs.«170980_j3685081940484_1_alg».proof.Proof.Gen.ReferenceIdeal.Run
import proofs.«170980_j3685081940484_1_alg».proof.Proof.Gen.ReferenceIdeal.Read
import proofs.«170980_j3685081940484_1_alg».proof.Proof.LaunchBits
import proofs.«170980_j3685081940484_1_alg».proof.Proof.KernelValue
import proofs.«170980_j3685081940484_1_alg».proof.Proof.RefSide

noncomputable section

namespace Cert.Proof

open Idealize.ShloMosaic Idealize.SL.Sem

/-- The program as printed, at machine words, runs to its end and leaves its arguments unchanged. -/
theorem frame_k : Cert.frame_Kernel (hKernel := Cert.Kernel.Gen.facts) (hPre_finite_inputs := Cert.Pre_finite_inputs.Gen.facts) :=
  fun m ρ _ => Cert.Kernel.Launched.frame (F := Bits) m ρ

/-- The same program read at the ideal values runs to its end and leaves its arguments unchanged. -/
theorem frame_ki : Cert.frame_KernelIdeal (hKernelIdeal := Cert.KernelIdeal.Gen.facts) (hPre_finite_inputs := Cert.Pre_finite_inputs.Gen.facts) :=
  fun m ρ _ => Cert.KernelIdeal.Launched.frame (F := Ideal) m ρ

/-- The reference runs to its end and leaves its arguments unchanged: its run, the two results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- From memories that agree on the eleven arguments, both programs end with the new hidden state and the new cell
    state of those arguments: the kernel by `Cert.Lstm.Value.run`, the reference by its run and `ref_h`, `ref_c`. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Lstm.Value.hOut m c, fun c => Cert.Lstm.Value.cOut m c, Cert.Lstm.Value.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10⟩ := hagree c
    rw [Cert.ReferenceIdeal.Read.val_main_v35_eq, Cert.Lstm.Ref.ref_h]
    unfold Cert.Lstm.Value.hOut
    rw [a0, a1, a2, a3, a4, a5, a6, a7, a8, a9, a10]
  · obtain ⟨a0, a1, a2, a3, a4, a5, a6, a7, a8, a9, a10⟩ := hagree c
    refine (Cert.ReferenceIdeal.Read.val_main_v33_eq _ _ _ _ _ _ _ _ _ _ _).trans ((Cert.Lstm.Ref.ref_c _ _ _ _ _ _ _ _ _ _ _).trans ?_)
    unfold Cert.Lstm.Value.cOut
    rw [a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
